-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part2 {F : FTy → Type} [FloatOps F] (main_arg1 : IVec S2x1000000 32) (main_arg8 : FVec F S16x1 .f32) (main_arg9 : FVec F S1 .f32) (main_v33 : IVec S_ 1) : IVec S_ 1 :=
  let main_v34 : FVec F S16x1 .f32 := Host.absf main_arg8
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 4294867296#32
  let main_v44 : IVec S2x1000000 32 := broadcastInDim S2x1000000 ![] bcast_S_S2x1000000 main_c_16
  let main_v45 : IVec S2x1000000 1 := cmpi .sge main_arg1 main_v44
  let main_c_17 : IVec S_ 32 := constantI S_ 32 100000#32
  let main_v46 : IVec S2x1000000 32 := broadcastInDim S2x1000000 ![] bcast_S_S2x1000000 main_c_17
  let main_v47 : IVec S2x1000000 1 := cmpi .slt main_arg1 main_v46
  let main_v48 : IVec S2x1000000 1 := andi main_v45 main_v47
  let main_c_18 : IVec S_ 1 := constantI S_ 1 1#1
  let main_v49 : IVec S_ 1 := (fun x v => Host.reduce IntOp.andi x v reducesTo_S2x1000000_S_d0_1 h_S_) main_v48 main_c_18
  let main_v50 : IVec S_ 1 := andi main_v43 main_v49
  main_v50

def fn_part1 {F : FTy → Type} [FloatOps F] (main_arg1 : IVec S2x1000000 32) (main_arg5 : FVec F S64 .f32) (main_arg6 : FVec F S64x16 .f32) (main_arg7 : FVec F S16 .f32) (main_arg8 : FVec F S16x1 .f32) (main_arg9 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg8 main_arg9 main_v33

def fn {F : FTy → Type} [FloatOps F] (main_arg0 : FVec F S100000x128 .f32) (main_arg1 : IVec S2x1000000 32) (main_arg2 : FVec F S256x256 .f32) (main_arg3 : FVec F S256 .f32) (main_arg4 : FVec F S256x64 .f32) (main_arg5 : FVec F S64 .f32) (main_arg6 : FVec F S64x16 .f32) (main_arg7 : FVec F S16 .f32) (main_arg8 : FVec F S16x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg1 main_arg5 main_arg6 main_arg7 main_arg8 main_arg9 main_v13 main_v16
-- ==== Kernel.lean ====
abbrev S100000x128 : Shape := ⟨2, ![100000, 128]⟩
abbrev S2x1000000 : Shape := ⟨2, ![2, 1000000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1007616 : Shape := ⟨1, ![1007616]⟩
abbrev S2015232 : Shape := ⟨1, ![2015232]⟩
abbrev S2015232x1 : Shape := ⟨2, ![2015232, 1]⟩
abbrev S1x1 : Shape := ⟨2, ![1, 1]⟩
abbrev S2015232x128 : Shape := ⟨2, ![2015232, 128]⟩
abbrev S1007616x128 : Shape := ⟨2, ![1007616, 128]⟩
abbrev S128x256 : Shape := ⟨2, ![128, 256]⟩
abbrev S1x256 : Shape := ⟨2, ![1, 256]⟩
abbrev S1x64 : Shape := ⟨2, ![1, 64]⟩
abbrev S1x16 : Shape := ⟨2, ![1, 16]⟩
abbrev S123x1x8192 : Shape := ⟨3, ![123, 1, 8192]⟩
abbrev S8192x128 : Shape := ⟨2, ![8192, 128]⟩
abbrev S1x1x8192 : Shape := ⟨3, ![1, 1, 8192]⟩
abbrev S8192x256 : Shape := ⟨2, ![8192, 256]⟩
abbrev S8192x64 : Shape := ⟨2, ![8192, 64]⟩
abbrev S8192x16 : Shape := ⟨2, ![8192, 16]⟩
abbrev S8192x1 : Shape := ⟨2, ![8192, 1]⟩

abbrev nBuf : Space → Nat
  | .hbm => 60
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S_, .i32⟩
  | .hbm, ⟨16, _⟩ => ⟨S1007616, .i32⟩
  | .hbm, ⟨17, _⟩ => ⟨S_, .i32⟩
  | .hbm, ⟨18, _⟩ => ⟨S_, .i32⟩
  | .hbm, ⟨19, _⟩ => ⟨S1007616, .i32⟩
  | .hbm, ⟨20, _⟩ => ⟨S2015232, .i32⟩
  | .hbm, ⟨21, _⟩ => ⟨S_, .i32⟩
  | .hbm, ⟨22, _⟩ => ⟨S2015232, .i32⟩
  | .hbm, ⟨23, _⟩ => ⟨S2015232, .i1⟩
  | .hbm, ⟨24, _⟩ => ⟨S_, .i32⟩
  | .hbm, ⟨25, _⟩ => ⟨S2015232, .i32⟩
  | .hbm, ⟨26, _⟩ => ⟨S2015232, .i32⟩
  | .hbm, ⟨27, _⟩ => ⟨S2015232, .i32⟩
  | .hbm, ⟨28, _⟩ => ⟨S2015232x1, .i32⟩
  | .hbm, ⟨29, _⟩ => ⟨S1, .i32⟩
  | .hbm, ⟨30, _⟩ => ⟨S_, .i32⟩
  | .hbm, ⟨31, _⟩ => ⟨S2015232x1, .i32⟩
  | .hbm, ⟨32, _⟩ => ⟨S2015232x1, .i1⟩
  | .hbm, ⟨33, _⟩ => ⟨S1x1, .i32⟩
  | .hbm, ⟨34, _⟩ => ⟨S2015232x1, .i32⟩
  | .hbm, ⟨35, _⟩ => ⟨S2015232x1, .i1⟩
  | .hbm, ⟨36, _⟩ => ⟨S2015232x1, .i1⟩
  | .hbm, ⟨37, _⟩ => ⟨S_, .i1⟩
  | .hbm, ⟨38, _⟩ => ⟨S2015232, .i1⟩
  | .hbm, ⟨39, _⟩ => ⟨S2015232x128, .f32⟩
  | .hbm, ⟨40, _⟩ => ⟨S2015232x128, .i1⟩
  | .hbm, ⟨41, _⟩ => ⟨S_, .f32⟩
  | .hbm, ⟨42, _⟩ => ⟨S2015232x128, .f32⟩
  | .hbm, ⟨43, _⟩ => ⟨S2015232x128, .f32⟩
  | .hbm, ⟨44, _⟩ => ⟨S1007616x128, .f32⟩
  | .hbm, ⟨45, _⟩ => ⟨S1007616x128, .f32⟩
  | .hbm, ⟨46, _⟩ => ⟨S128x256, .f32⟩
  | .hbm, ⟨47, _⟩ => ⟨S128x256, .bf16⟩
  | .hbm, ⟨48, _⟩ => ⟨S128x256, .f32⟩
  | .hbm, ⟨49, _⟩ => ⟨S128x256, .bf16⟩
  | .hbm, ⟨50, _⟩ => ⟨S256x64, .bf16⟩
  | .hbm, ⟨51, _⟩ => ⟨S64x16, .bf16⟩
  | .hbm, ⟨52, _⟩ => ⟨S16x1, .bf16⟩
  | .hbm, ⟨53, _⟩ => ⟨S1x256, .f32⟩
  | .hbm, ⟨54, _⟩ => ⟨S1x64, .f32⟩
  | .hbm, ⟨55, _⟩ => ⟨S1x16, .f32⟩
  | .hbm, ⟨56, _⟩ => ⟨S1x1, .f32⟩
  | .hbm, ⟨57, _⟩ => ⟨S123x1x8192, .f32⟩
  | .hbm, ⟨58, _⟩ => ⟨S1007616, .f32⟩
  | .hbm, ⟨59, _⟩ => ⟨S1000000, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S256x64, .bf16⟩
  | .local _ .vmem, ⟨8, _⟩ => ⟨S1x64, .f32⟩
  | .local _ .vmem, ⟨9, _⟩ => ⟨S64x16, .bf16⟩
  | .local _ .vmem, ⟨10, _⟩ => ⟨S1x16, .f32⟩
  | .local _ .vmem, ⟨11, _⟩ => ⟨S16x1, .bf16⟩
  | .local _ .vmem, ⟨12, _⟩ => ⟨S1x1, .f32⟩
  | .local _ .vmem, ⟨13, _⟩ => ⟨S1x1x8192, .f32⟩
  | .local _ .vmem, ⟨14, _⟩ => ⟨S1x1x8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_call2_c : Ref sig .tc := ⟨.hbm, 21, rfl⟩
abbrev main_call2_v0 : Ref sig .tc := ⟨.hbm, 22, rfl⟩
abbrev main_call2_v1 : Ref sig .tc := ⟨.hbm, 23, rfl⟩
abbrev main_call2_c_0 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_v5 : Ref sig .tc := ⟨.hbm, 28, rfl⟩
abbrev main_call2_c_1 : Ref sig .tc := ⟨.hbm, 29, rfl⟩
abbrev main_call2_c_2 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_c_3 : Ref sig .tc := ⟨.hbm, 37, rfl⟩
abbrev main_call2_v12 : Ref sig .tc := ⟨.hbm, 38, rfl⟩
abbrev main_call2_v13 : Ref sig .tc := ⟨.hbm, 39, rfl⟩
abbrev main_call2_v14 : Ref sig .tc := ⟨.hbm, 40, rfl⟩
abbrev main_call2_cst : Ref sig .tc := ⟨.hbm, 41, rfl⟩
abbrev main_call2_v15 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  pads_S1000000_S1007616_076160 : S1000000.Pads (![0] : Fin 1 → Nat) ![7616] ![0] S1007616
  h_S_ : 0 < S_.numel
  concatenates_S1007616_S1007616_S2015232_d0 : Shape.Concatenates [S1007616, S1007616] S2015232 0
  bcast_S_S2015232 : S_.BroadcastsInDim S2015232 (![] : Fin 0 → Fin S2015232.rank)
  bcast_S2015232_S2015232x1_0 : S2015232.BroadcastsInDim S2015232x1 (![0] : Fin 1 → Fin S2015232x1.rank)
  bcast_S_S2015232x1 : S_.BroadcastsInDim S2015232x1 (![] : Fin 0 → Fin S2015232x1.rank)
  bcast_S1_S1x1_1 : S1.BroadcastsInDim S1x1 (![1] : Fin 1 → Fin S1x1.rank)
  bcast_S1x1_S2015232x1_0_1 : S1x1.BroadcastsInDim S2015232x1 (![0, 1] : Fin 2 → Fin S2015232x1.rank)
  reducesTo_S2015232x1_S2015232_d1 : S2015232x1.ReducesTo [1] S2015232
  bcast_S2015232_S2015232x128_0 : S2015232.BroadcastsInDim S2015232x128 (![0] : Fin 1 → Fin S2015232x128.rank)
  bcast_S_S2015232x128 : S_.BroadcastsInDim S2015232x128 (![] : Fin 0 → Fin S2015232x128.rank)
  slices_S2015232x128_S1007616x128_0_0 : S2015232x128.Slices ![0, 0] S1007616x128
  slices_S2015232x128_S1007616x128_1007616_0 : S2015232x128.Slices ![1007616, 0] S1007616x128
  slices_S256x256_S128x256_0_0 : S256x256.Slices ![0, 0] S128x256
  bitsLt_bf16_f32 : FTy.bits .bf16 < FTy.bits .f32
  slices_S256x256_S128x256_128_0 : S256x256.Slices ![128, 0] S128x256
  shapeCasts_S256_S1x256 : S256.ShapeCasts S1x256
  shapeCasts_S64_S1x64 : S64.ShapeCasts S1x64
  shapeCasts_S16_S1x16 : S16.ShapeCasts S1x16
  shapeCasts_S1_S1x1 : S1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  shapeCasts_S8192x1_S1x1x8192 : S8192x1.ShapeCasts S1x1x8192
  inb_S1x1x8192_S1x1x8192_0_0_0 : ∀ a, (![0, 0, 0] : Fin 3 → Nat) a + S1x1x8192.size a ≤ S1x1x8192.size a
  h_S1x1x8192 : 0 < S1x1x8192.numel
  shapeCasts_S123x1x8192_S1007616 : S123x1x8192.ShapeCasts S1007616
  slices_S1007616_S1000000_0 : S1007616.Slices ![0] S1000000
  gather_S100000x128_S2015232x1_S2015232x128_1_0_n_n_0_1_1128_wf : GatherDims.WF S100000x128 S2015232x1 S2015232x128 [1] [0] [] [0] [] 1 ![1, 128]
  dot_S8192x128_S128x256_S8192x256_1_0_0_1_n_n_wf : DotDims.WF S8192x128 S128x256 S8192x256 [1] [0] [0] [1] [] []
  dot_S8192x256_S256x64_S8192x64_1_0_0_1_n_n_wf : DotDims.WF S8192x256 S256x64 S8192x64 [1] [0] [0] [1] [] []
  dot_S8192x64_S64x16_S8192x16_1_0_0_1_n_n_wf : DotDims.WF S8192x64 S64x16 S8192x16 [1] [0] [0] [1] [] []
  dot_S8192x16_S16x1_S8192x1_1_0_0_1_n_n_wf : DotDims.WF S8192x16 S16x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1007616x128.size a
  hwx0_0 : ∀ i : grid0.Coords, EltTy.bits .f32 = 32 ∨ (Rect.block (s := S1007616x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1007616x128.size a
  hwx0_1 : ∀ i : grid0.Coords, EltTy.bits .f32 = 32 ∨ (Rect.block (s := S1007616x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .bf16 = 32 ∨ (Rect.block (s := S256x64) S256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x16.size a ≤ S64x16.size a
  hwx0_7 : ∀ i : grid0.Coords, EltTy.bits .bf16 = 32 ∨ (Rect.block (s := S64x16) S64x16.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x1.size a ≤ S16x1.size a
  hwx0_9 : ∀ i : grid0.Coords, EltTy.bits .bf16 = 32 ∨ (Rect.block (s := S16x1) S16x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x8192.size a ≤ S123x1x8192.size a
  hwx0_11 : ∀ i : grid0.Coords, EltTy.bits .f32 = 32 ∨ (Rect.block (s := S123x1x8192) S1x1x8192.size (cc0_transform_11 i) (hinb0_11 i)).WholeWords (EltTy.packing .f32)

variable [Facts₀]

def gather_S100000x128_S2015232x1_S2015232x128_1_0_n_n_0_1_1128 : GatherDims S100000x128 S2015232x1 S2015232x128 where
  offsetDims := [1]
  collapsedSliceDims := [0]
  operandBatchingDims := []
  startIndicesBatchingDims := []
  startIndexMap := [0]
  indexVectorDim := 1
  sliceSizes := ![1, 128]
  wf := gather_S100000x128_S2015232x1_S2015232x128_1_0_n_n_0_1_1128_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x16_S16x1_S8192x1_1_0_0_1_n_n : DotDims S8192x16 S16x1 S8192x1 where
  lhsContracting := [1]
  rhsContracting := [0]
  lhsNonContracting := [0]
  rhsNonContracting := [1]
  lhsBatch := []
  rhsBatch := []
  wf := dot_S8192x16_S16x1_S8192x1_1_0_0_1_n_n_wf

abbrev win0_0 : Pipeline.Window sig grid0 :=
  Pipeline.Window.ofSpec (Memref.whole main_v8) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S64x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S16x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x1x8192.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S1x256 : Shape := ⟨2, ![1, 256]⟩
abbrev S1000000x64 : Shape := ⟨2, ![1000000, 64]⟩
abbrev S1x64 : Shape := ⟨2, ![1, 64]⟩
abbrev S1000000x16 : Shape := ⟨2, ![1000000, 16]⟩
abbrev S1x16 : Shape := ⟨2, ![1, 16]⟩
abbrev S1x1 : Shape := ⟨2, ![1, 1]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .f32⟩
  | .hbm, ⟨21, _⟩ => ⟨S1x1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x128, .f32⟩
  | .hbm, ⟨32, _⟩ => ⟨S1000000x256, .f32⟩
  | .hbm, ⟨33, _⟩ => ⟨S1000000x256, .f32⟩
  | .hbm, ⟨34, _⟩ => ⟨S1x256, .f32⟩
  | .hbm, ⟨35, _⟩ => ⟨S1000000x256, .f32⟩
  | .hbm, ⟨36, _⟩ => ⟨S1000000x256, .f32⟩
  | .hbm, ⟨37, _⟩ => ⟨S_, .f32⟩
  | .hbm, ⟨38, _⟩ => ⟨S1000000x256, .f32⟩
  | .hbm, ⟨39, _⟩ => ⟨S1000000x256, .f32⟩
  | .hbm, ⟨40, _⟩ => ⟨S1000000x64, .f32⟩
  | .hbm, ⟨41, _⟩ => ⟨S1x64, .f32⟩
  | .hbm, ⟨42, _⟩ => ⟨S1000000x64, .f32⟩
  | .hbm, ⟨43, _⟩ => ⟨S1000000x64, .f32⟩
  | .hbm, ⟨44, _⟩ => ⟨S_, .f32⟩
  | .hbm, ⟨45, _⟩ => ⟨S1000000x64, .f32⟩
  | .hbm, ⟨46, _⟩ => ⟨S1000000x64, .f32⟩
  | .hbm, ⟨47, _⟩ => ⟨S1000000x16, .f32⟩
  | .hbm, ⟨48, _⟩ => ⟨S1x16, .f32⟩
  | .hbm, ⟨49, _⟩ => ⟨S1000000x16, .f32⟩
  | .hbm, ⟨50, _⟩ => ⟨S1000000x16, .f32⟩
  | .hbm, ⟨51, _⟩ => ⟨S_, .f32⟩
  | .hbm, ⟨52, _⟩ => ⟨S1000000x16, .f32⟩
  | .hbm, ⟨53, _⟩ => ⟨S1000000x16, .f32⟩
  | .hbm, ⟨54, _⟩ => ⟨S1000000x1, .f32⟩
  | .hbm, ⟨55, _⟩ => ⟨S1x1, .f32⟩
  | .hbm, ⟨56, _⟩ => ⟨S1000000x1, .f32⟩
  | .hbm, ⟨57, _⟩ => ⟨S1000000x1, .f32⟩
  | .hbm, ⟨58, _⟩ => ⟨S1000000, .f32⟩
  | .hbm, ⟨59, _⟩ => ⟨S1000000, .f32⟩
  | .hbm, ⟨60, _⟩ => ⟨S1000000, .f32⟩
  | .hbm, ⟨61, _⟩ => ⟨S_, .f32⟩
  | .hbm, ⟨62, _⟩ => ⟨S1000000, .f32⟩
  | .hbm, ⟨63, _⟩ => ⟨S1000000, .f32⟩
  | .hbm, ⟨64, _⟩ => ⟨S_, .f32⟩
  | .hbm, ⟨65, _⟩ => ⟨S1000000, .f32⟩
  | .hbm, ⟨66, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call2_cst : Ref sig .tc := ⟨.hbm, 51, rfl⟩
abbrev main_call2_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x128_S1000000x128_S1000000x256_d1 : Shape.Concatenates [S1000000x128, S1000000x128] S1000000x256 1
  bcast_S256_S1x256_1 : S256.BroadcastsInDim S1x256 (![1] : Fin 1 → Fin S1x256.rank)
  bcast_S1x256_S1000000x256_0_1 : S1x256.BroadcastsInDim S1000000x256 (![0, 1] : Fin 2 → Fin S1000000x256.rank)
  bcast_S_S1000000x256 : S_.BroadcastsInDim S1000000x256 (![] : Fin 0 → Fin S1000000x256.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S1000000x16 : S_.BroadcastsInDim S1000000x16 (![] : Fin 0 → Fin S1000000x16.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  dot_S1000000x256_S256x256_S1000000x256_1_0_0_1_n_n_wf : DotDims.WF S1000000x256 S256x256 S1000000x256 [1] [0] [0] [1] [] []
  dot_S1000000x256_S256x64_S1000000x64_1_0_0_1_n_n_wf : DotDims.WF S1000000x256 S256x64 S1000000x64 [1] [0] [0] [1] [] []
  dot_S1000000x64_S64x16_S1000000x16_1_0_0_1_n_n_wf : DotDims.WF S1000000x64 S64x16 S1000000x16 [1] [0] [0] [1] [] []
  dot_S1000000x16_S16x1_S1000000x1_1_0_0_1_n_n_wf : DotDims.WF S1000000x16 S16x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x256_S256x256_S1000000x256_1_0_0_1_n_n : DotDims S1000000x256 S256x256 S1000000x256 where
  lhsContracting := [1]
  rhsContracting := [0]
  lhsNonContracting := [0]
  rhsNonContracting := [1]
  lhsBatch := []
  rhsBatch := []
  wf := dot_S1000000x256_S256x256_S1000000x256_1_0_0_1_n_n_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf
def dot_S1000000x64_S64x16_S1000000x16_1_0_0_1_n_n : DotDims S1000000x64 S64x16 S1000000x16 where
  lhsContracting := [1]
  rhsContracting := [0]
  lhsNonContracting := [0]
  rhsNonContracting := [1]
  lhsBatch := []
  rhsBatch := []
  wf := dot_S1000000x64_S64x16_S1000000x16_1_0_0_1_n_n_wf
def dot_S1000000x16_S16x1_S1000000x1_1_0_0_1_n_n : DotDims S1000000x16 S16x1 S1000000x1 where
  lhsContracting := [1]
  rhsContracting := [0]
  lhsNonContracting := [0]
  rhsNonContracting := [1]
  lhsBatch := []
  rhsBatch := []
  wf := dot_S1000000x16_S16x1_S1000000x1_1_0_0_1_n_n_wf

class Facts : Prop extends Facts₀ where

variable [Facts]
-- ==== Proof.Spec.lean ====
/-
  What the edge scorer computes, as one function of the argument arrays, at the ideal values.

  An edge e has two endpoints, the index words edge_index[0, e] and edge_index[1, e]. A word names a row of the
  node table z : [100000, 128] after numpy's normalisation: a negative word has the table's height added, and the
  result, read signed, is clamped into [0, 99999]. The edge's score is a four-layer perceptron of the two rows:
    h1 = relu (a · W1[0:128] + b · W1[128:256] + b1),   h2 = relu (h1 · W2 + b2),
    h3 = h2 · W3 + b3,                                   score = logistic (relu h3 · W4 + b4),
  every sum and product the extended reals' own. The first layer over the two rows side by side (one sum over 256
  columns of the joined row) is the same number, because a sum over Fin (128 + 128) splits into its two halves.
-/
import Idealize.ShloMosaic.PureOps.Ideal
import Idealize.ShloMosaic.Lib.ValueIdx
import Mathlib.Algebra.BigOperators.Fin

noncomputable section

open scoped BigOperators

namespace Cert.EdgeMlp

open Idealize.ShloMosaic Idealize.ShloMosaic.ValueIdx

/-! ## The perceptron on one edge's two rows -/

/-- First layer, the two rows against the two halves of the first weight matrix, then the bias and the relu. -/
def layer1 (a b : Fin 128 → EReal) (Wa Wb : Fin 128 → Fin 256 → EReal) (c1 : Fin 256 → EReal) (j : Fin 256) : EReal :=
  max ((∑ k : Fin 128, a k * Wa k j + ∑ k : Fin 128, b k * Wb k j) + c1 j) 0

/-- Second layer with its relu. -/
def layer2 (h : Fin 256 → EReal) (W : Fin 256 → Fin 64 → EReal) (c : Fin 64 → EReal) (j : Fin 64) : EReal :=
  max (∑ k : Fin 256, h k * W k j + c j) 0

/-- Third layer, no activation. -/
def layer3 (h : Fin 64 → EReal) (W : Fin 64 → Fin 16 → EReal) (c : Fin 16 → EReal) (j : Fin 16) : EReal :=
  ∑ k : Fin 64, h k * W k j + c j

/-- The head: relu, the last linear map to one number, the logistic function. -/
def head (h : Fin 16 → EReal) (W : Fin 16 → EReal) (c : EReal) : EReal :=
  Ideal.logistic (∑ k : Fin 16, max (h k) 0 * W k + c)

/-- The whole perceptron of the rows a and b. -/
def mlp (a b : Fin 128 → EReal) (Wa Wb : Fin 128 → Fin 256 → EReal) (c1 : Fin 256 → EReal)
    (W2 : Fin 256 → Fin 64 → EReal) (c2 : Fin 64 → EReal) (W3 : Fin 64 → Fin 16 → EReal) (c3 : Fin 16 → EReal)
    (W4 : Fin 16 → EReal) (c4 : EReal) : EReal :=
  head (layer3 (layer2 (layer1 a b Wa Wb c1) W2 c2) W3 c3) W4 c4

/-- A sum over the 256 columns of a joined row is the sum over the first row's 128 plus the second's. -/
theorem sum_joined (ef W : Fin 256 → EReal) (a b : Fin 128 → EReal)
    (ha : ∀ k : Fin 128, ef (Fin.castAdd 128 k) = a k) (hb : ∀ k : Fin 128, ef (Fin.natAdd 128 k) = b k) :
    ∑ k : Fin 256, ef k * W k
      = ∑ k : Fin 128, a k * W (Fin.castAdd 128 k) + ∑ k : Fin 128, b k * W (Fin.natAdd 128 k) := by
  rw [show (∑ k : Fin 256, ef k * W k) = ∑ k : Fin (128 + 128), ef k * W k from rfl, Fin.sum_univ_add]
  simp only [ha, hb]

/-! ## Index words -/

/-- numpy's normalisation of an index word into a table of height 100000: a negative word has 100000 added. -/
def wrapWord (w : BitVec 32) : BitVec 32 :=
  Scalar.select (IntOp.cmpi .slt w 0#32) (IntOp.addi w 100000#32) w

/-- The table row a word names: the normalised word, read signed, clamped into the table. -/
def node (w : BitVec 32) : Fin 100000 := ⟨min (wrapWord w).toInt.toNat (100000 - 1), by omega⟩

/-- A word a valid numpy index of the table: -100000 ≤ w < 100000, signed. -/
def WordOk (w : BitVec 32) : Prop :=
  IntOp.cmpi .sge w 4294867296#32 = 1#1 ∧ IntOp.cmpi .slt w 100000#32 = 1#1

theorem wrapWord_zero : wrapWord 0#32 = 0#32 := by decide

/-! ## The result -/

/-- The score of every edge, as a function of the ten argument arrays. -/
def G (z : (⟨2, ![100000, 128]⟩ : Shape).Idx → EReal) (ei : IVec ⟨2, ![2, 1000000]⟩ 32)
    (W1 : (⟨2, ![256, 256]⟩ : Shape).Idx → EReal) (b1 : (⟨1, ![256]⟩ : Shape).Idx → EReal)
    (W2 : (⟨2, ![256, 64]⟩ : Shape).Idx → EReal) (b2 : (⟨1, ![64]⟩ : Shape).Idx → EReal)
    (W3 : (⟨2, ![64, 16]⟩ : Shape).Idx → EReal) (b3 : (⟨1, ![16]⟩ : Shape).Idx → EReal)
    (W4 : (⟨2, ![16, 1]⟩ : Shape).Idx → EReal) (b4 : (⟨1, ![1]⟩ : Shape).Idx → EReal) :
    (⟨1, ![1000000]⟩ : Shape).Idx → EReal := fun i =>
  mlp (fun k => z (ix2 (node (ei (ix2 (0 : Fin 2) (i 0)))) k)) (fun k => z (ix2 (node (ei (ix2 (1 : Fin 2) (i 0)))) k))
    (fun k j => W1 (ix2 (Fin.castAdd 128 k) j)) (fun k j => W1 (ix2 (Fin.natAdd 128 k) j)) (fun j => b1 (ix1 j))
    (fun k j => W2 (ix2 k j)) (fun j => b2 (ix1 j)) (fun k j => W3 (ix2 k j)) (fun j => b3 (ix1 j))
    (fun k => W4 (ix2 k (0 : Fin 1))) (b4 (ix1 (0 : Fin 1)))

end Cert.EdgeMlp

end
-- ==== Proof.KernelBody.lean ====
/-
  The kernel body at one lane: what the body stores at lane q of its [1, 1, 8192] output block is the
  perceptron of row q of the two feature blocks and the weight and bias blocks.

  Every operation of the body but four kinds acts on each entry alone, and at the ideal values the casts to
  bf16 are the identity. The four kinds that move entries are read at an index first: a matrix product into the
  zero accumulator is the sum over the contracted coordinate; a row [1, b] spread over [a, b] reads the row; a
  cast to the same shape reads the same entry; and the last cast, [8192, 1] to [1, 1, 8192], reads entry (q, 0)
  at lane q. With these the three hidden layers and the head are read off one after the other.
-/
import proofs.«413607_j66975720014384_3_alg».proof.Proof.Gen.KernelIdeal.Skeleton
import proofs.«413607_j66975720014384_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.EdgeMlp

open Cert.KernelIdeal Cert.KernelIdeal.Gen Idealize.ShloMosaic Idealize.ShloMosaic.ValueIdx

/-! ## A matrix product [m, k] × [k, n] read at an entry

The four products of the body all contract the left operand's second axis with the right operand's first and have
no batch axis; they differ in their sizes only. The operand indices at result index i and contraction index q are
computed axis by axis. -/

section Product
variable {m k n : ℕ}

/-- The left operand's row is the result's row. -/
theorem prod_lhs_0 (w : DotDims.WF ⟨2, ![m, k]⟩ ⟨2, ![k, n]⟩ ⟨2, ![m, n]⟩ [1] [0] [0] [1] [] [])
    (i : (⟨2, ![m, n]⟩ : Shape).Idx) (q : (⟨[1], [0], [0], [1], [], [], w⟩ : DotDims ⟨2, ![m, k]⟩ ⟨2, ![k, n]⟩ ⟨2, ![m, n]⟩).contr.Idx) :
    ((⟨[1], [0], [0], [1], [], [], w⟩ : DotDims ⟨2, ![m, k]⟩ ⟨2, ![k, n]⟩ ⟨2, ![m, n]⟩).lhsIdx i q 0).val = (i 0).val := by
  unfold DotDims.lhsIdx
  rw [dif_neg (List.not_mem_nil : ¬(0 : Fin (⟨2, ![m, k]⟩ : Shape).rank) ∈ []),
    dif_pos (List.mem_singleton.mpr rfl : (0 : Fin (⟨2, ![m, k]⟩ : Shape).rank) ∈ [0])]
  rfl

/-- The left operand's column is the contraction index. -/
theorem prod_lhs_1 (w : DotDims.WF ⟨2, ![m, k]⟩ ⟨2, ![k, n]⟩ ⟨2, ![m, n]⟩ [1] [0] [0] [1] [] [])
    (i : (⟨2, ![m, n]⟩ : Shape).Idx) (q : (⟨[1], [0], [0], [1], [], [], w⟩ : DotDims ⟨2, ![m, k]⟩ ⟨2, ![k, n]⟩ ⟨2, ![m, n]⟩).contr.Idx) :
    ((⟨[1], [0], [0], [1], [], [], w⟩ : DotDims ⟨2, ![m, k]⟩ ⟨2, ![k, n]⟩ ⟨2, ![m, n]⟩).lhsIdx i q 1).val = (q ⟨0, Nat.one_pos⟩).val :=
  (⟨[1], [0], [0], [1], [], [], w⟩ : DotDims ⟨2, ![m, k]⟩ ⟨2, ![k, n]⟩ ⟨2, ![m, n]⟩).lhsIdx_val_of_single rfl i q

/-- The right operand's row is the contraction index. -/
theorem prod_rhs_0 (w : DotDims.WF ⟨2, ![m, k]⟩ ⟨2, ![k, n]⟩ ⟨2, ![m, n]⟩ [1] [0] [0] [1] [] [])
    (i : (⟨2, ![m, n]⟩ : Shape).Idx) (q : (⟨[1], [0], [0], [1], [], [], w⟩ : DotDims ⟨2, ![m, k]⟩ ⟨2, ![k, n]⟩ ⟨2, ![m, n]⟩).contr.Idx) :
    ((⟨[1], [0], [0], [1], [], [], w⟩ : DotDims ⟨2, ![m, k]⟩ ⟨2, ![k, n]⟩ ⟨2, ![m, n]⟩).rhsIdx i q 0).val = (q ⟨0, Nat.one_pos⟩).val :=
  (⟨[1], [0], [0], [1], [], [], w⟩ : DotDims ⟨2, ![m, k]⟩ ⟨2, ![k, n]⟩ ⟨2, ![m, n]⟩).rhsIdx_val_of_single rfl i q

/-- The right operand's column is the result's column. -/
theorem prod_rhs_1 (w : DotDims.WF ⟨2, ![m, k]⟩ ⟨2, ![k, n]⟩ ⟨2, ![m, n]⟩ [1] [0] [0] [1] [] [])
    (i : (⟨2, ![m, n]⟩ : Shape).Idx) (q : (⟨[1], [0], [0], [1], [], [], w⟩ : DotDims ⟨2, ![m, k]⟩ ⟨2, ![k, n]⟩ ⟨2, ![m, n]⟩).contr.Idx) :
    ((⟨[1], [0], [0], [1], [], [], w⟩ : DotDims ⟨2, ![m, k]⟩ ⟨2, ![k, n]⟩ ⟨2, ![m, n]⟩).rhsIdx i q 1).val = (i 1).val := by
  unfold DotDims.rhsIdx
  rw [dif_neg (List.not_mem_nil : ¬(1 : Fin (⟨2, ![k, n]⟩ : Shape).rank) ∈ []),
    dif_pos (List.mem_singleton.mpr rfl : (1 : Fin (⟨2, ![k, n]⟩ : Shape).rank) ∈ [1])]
  rfl

/-- The product into the zero accumulator at entry (a, b): the sum over c of A (a, c) · B (c, b). -/
theorem prod_zero_apply {φ₁ φ₂ : FTy} (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B (constant (F := Ideal) ⟨2, ![m, n]⟩ .f32 0x00000000#32) (ix2 a b)
      = ∑ c : Fin k, A (ix2 a c) * B (ix2 c b) := by
  show FloatOps.matmul (⟨[1], [0], [0], [1], [], [], w⟩ : DotDims ⟨2, ![m, k]⟩ ⟨2, ![k, n]⟩ ⟨2, ![m, n]⟩) none A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val (⟨[1], [0], [0], [1], [], [], w⟩ : DotDims ⟨2, ![m, k]⟩ ⟨2, ![k, n]⟩ ⟨2, ![m, n]⟩) k rfl rfl c
  have el : (⟨[1], [0], [0], [1], [], [], w⟩ : DotDims ⟨2, ![m, k]⟩ ⟨2, ![k, n]⟩ ⟨2, ![m, n]⟩).lhsIdx (ix2 a b) ((contrEquiv1 (⟨[1], [0], [0], [1], [], [], w⟩ : DotDims ⟨2, ![m, k]⟩ ⟨2, ![k, n]⟩ ⟨2, ![m, n]⟩) k rfl rfl).symm c) = ix2 a c :=
    funext fun ax => Fin.ext (by
      match ax with
      | ⟨0, _⟩ => exact prod_lhs_0 w _ _
      | ⟨1, _⟩ => exact (prod_lhs_1 w _ _).trans hc)
  have er : (⟨[1], [0], [0], [1], [], [], w⟩ : DotDims ⟨2, ![m, k]⟩ ⟨2, ![k, n]⟩ ⟨2, ![m, n]⟩).rhsIdx (ix2 a b) ((contrEquiv1 (⟨[1], [0], [0], [1], [], [], w⟩ : DotDims ⟨2, ![m, k]⟩ ⟨2, ![k, n]⟩ ⟨2, ![m, n]⟩) k rfl rfl).symm c) = ix2 c b :=
    funext fun ax => Fin.ext (by
      match ax with
      | ⟨0, _⟩ => exact (prod_rhs_0 w _ _).trans hc
      | ⟨1, _⟩ => exact prod_rhs_1 w _ _)
  rw [el, er]

/-- The same with the right operand first cast to its own shape, as the body passes its weight blocks. -/
theorem dense_apply {φ₁ φ₂ : FTy} (w : DotDims.WF ⟨2, ![m, k]⟩ ⟨2, ![k, n]⟩ ⟨2, ![m, n]⟩ [1] [0] [0] [1] [] [])
    (A : FVec Ideal ⟨2, ![m, k]⟩ φ₁) (W : FVec Ideal ⟨2, ![k, n]⟩ φ₂)
    (hW : (⟨2, ![k, n]⟩ : Shape).ShapeCasts ⟨2, ![k, n]⟩) (a : Fin m) (b : Fin n) :
    matmul (⟨[1], [0], [0], [1], [], [], w⟩ : DotDims ⟨2, ![m, k]⟩ ⟨2, ![k, n]⟩ ⟨2, ![m, n]⟩) none A (shapeCast ⟨2, ![k, n]⟩ W hW) (constant (F := Ideal) ⟨2, ![m, n]⟩ .f32 0x00000000#32) (ix2 a b)
      = ∑ c : Fin k, A (ix2 a c) * W (ix2 c b) := by
  rw [shapeCast_self]
  exact prod_zero_apply w A W a b

end Product

/-! ## A bias row added, then the relu, then the cast to bf16 -/

/-- At entry (p, j): the larger of y (p, j) + r (0, j) and 0. -/
theorem bias_relu_apply {a b : ℕ} (y : FVec Ideal ⟨2, ![a, b]⟩ .f32) (r : FVec Ideal ⟨2, ![1, b]⟩ .f32)
    (hb : (⟨2, ![1, b]⟩ : Shape).Broadcasts ⟨2, ![a, b]⟩) (hlt : FTy.bits .bf16 < FTy.bits .f32) (p : Fin a) (j : Fin b) :
    (truncf .bf16 (maximumf (addf y (broadcastTo ⟨2, ![a, b]⟩ r hb))
        (broadcast ⟨2, ![a, b]⟩ (Scalar.ofBits (F := Ideal) .f32 0x00000000#32))) hlt : FVec Ideal ⟨2, ![a, b]⟩ .bf16) (ix2 p j)
      = max (y (ix2 p j) + r (ix2 (0 : Fin 1) j)) 0 := by
  show max (y (ix2 p j) + broadcastTo ⟨2, ![a, b]⟩ r hb (ix2 p j)) (Ideal.ofBits .f32 0x00000000#32) = _
  rw [broadcastTo_1b_ab_apply, Ideal.ofBits_zero_f32]

/-! ## The layers -/

/-- The first layer's block at (p, j), from the two feature blocks, the two halves of the first weight matrix and
    the first bias row. -/
theorem layer1_apply (x0 x1 : FVec Ideal S8192x128 .f32) (x2 x3 : FVec Ideal S128x256 .bf16) (x4 : FVec Ideal S1x256 .f32)
    (h0 : S8192x128.ShapeCasts S8192x128) (h2 : S128x256.ShapeCasts S128x256) (h4 : S1x256.ShapeCasts S1x256)
    (hb : S1x256.Broadcasts S8192x256) (hlt : FTy.bits .bf16 < FTy.bits .f32) (p : Fin 8192) (j : Fin 256) :
    (truncf .bf16 (maximumf (addf (addf
          (matmul dot_S8192x128_S128x256_S8192x256_1_0_0_1_n_n none (truncf .bf16 (shapeCast S8192x128 x0 h0) hlt)
            (shapeCast S128x256 x2 h2) (constant S8192x256 .f32 0x00000000#32))
          (matmul dot_S8192x128_S128x256_S8192x256_1_0_0_1_n_n none (truncf .bf16 (shapeCast S8192x128 x1 h0) hlt)
            (shapeCast S128x256 x3 h2) (constant S8192x256 .f32 0x00000000#32)))
        (broadcastTo S8192x256 (shapeCast S1x256 x4 h4) hb))
        (broadcast S8192x256 (Scalar.ofBits (F := Ideal) .f32 0x00000000#32))) hlt : FVec Ideal S8192x256 .bf16) (ix2 p j)
      = layer1 (fun c => x0 (ix2 p c)) (fun c => x1 (ix2 p c)) (fun c j => x2 (ix2 c j)) (fun c j => x3 (ix2 c j))
          (fun j => x4 (ix2 (0 : Fin 1) j)) j := by
  refine (bias_relu_apply _ _ hb hlt p j).trans ?_
  refine congrArg₂ (fun s t => max (s + t) 0) (congrArg₂ (· + ·) ?_ ?_) (congrFun (shapeCast_self x4 h4) _)
  · refine (dense_apply dot_S8192x128_S128x256_S8192x256_1_0_0_1_n_n.wf _ x2 h2 p j).trans
      (Finset.sum_congr rfl fun c _ => congrArg (· * x2 (ix2 c j)) ?_)
    exact congrFun (shapeCast_self x0 h0) _
  · refine (dense_apply dot_S8192x128_S128x256_S8192x256_1_0_0_1_n_n.wf _ x3 h2 p j).trans
      (Finset.sum_congr rfl fun c _ => congrArg (· * x3 (ix2 c j)) ?_)
    exact congrFun (shapeCast_self x1 h0) _

/-- The second layer's block at (p, j), over any block h for the first layer's. -/
theorem layer2_apply (h : FVec Ideal S8192x256 .bf16) (x5 : FVec Ideal S256x64 .bf16) (x6 : FVec Ideal S1x64 .f32)
    (h5 : S256x64.ShapeCasts S256x64) (h6 : S1x64.ShapeCasts S1x64) (hb : S1x64.Broadcasts S8192x64)
    (hlt : FTy.bits .bf16 < FTy.bits .f32) (p : Fin 8192) (j : Fin 64) :
    (truncf .bf16 (maximumf (addf
          (matmul dot_S8192x256_S256x64_S8192x64_1_0_0_1_n_n none h (shapeCast S256x64 x5 h5)
            (constant S8192x64 .f32 0x00000000#32))
          (broadcastTo S8192x64 (shapeCast S1x64 x6 h6) hb))
        (broadcast S8192x64 (Scalar.ofBits (F := Ideal) .f32 0x00000000#32))) hlt : FVec Ideal S8192x64 .bf16) (ix2 p j)
      = layer2 (fun c => h (ix2 p c)) (fun c j => x5 (ix2 c j)) (fun j => x6 (ix2 (0 : Fin 1) j)) j := by
  refine (bias_relu_apply _ _ hb hlt p j).trans ?_
  exact congrArg₂ (fun s t => max (s + t) 0) (dense_apply dot_S8192x256_S256x64_S8192x64_1_0_0_1_n_n.wf h x5 h5 p j)
    (congrFun (shapeCast_self x6 h6) _)

/-- The third product at (p, j), over any block h for the second layer's: the third layer before its bias. -/
theorem layer3_apply (h : FVec Ideal S8192x64 .bf16) (x7 : FVec Ideal S64x16 .bf16) (h7 : S64x16.ShapeCasts S64x16)
    (p : Fin 8192) (j : Fin 16) :
    matmul dot_S8192x64_S64x16_S8192x16_1_0_0_1_n_n none h (shapeCast S64x16 x7 h7) (constant S8192x16 .f32 0x00000000#32)
        (ix2 p j)
      = ∑ c : Fin 64, h (ix2 p c) * x7 (ix2 c j) :=
  dense_apply dot_S8192x64_S64x16_S8192x16_1_0_0_1_n_n.wf h x7 h7 p j

/-- The body's first value: the third product of the second layer of the first, at (p, j). -/
theorem pay2_apply (x0 x1 : Vec Ideal S8192x128 .f32) (x2 x3 : Vec Ideal S128x256 .bf16) (x4 : Vec Ideal S1x256 .f32)
    (x5 : Vec Ideal S256x64 .bf16) (x6 : Vec Ideal S1x64 .f32) (x7 : Vec Ideal S64x16 .bf16) (p : Fin 8192) (j : Fin 16) :
    k0_pay2 (F := Ideal) x0 x1 x2 x3 x4 x5 x6 x7 (ix2 p j)
      = ∑ c : Fin 64,
          layer2 (layer1 (fun c => x0 (ix2 p c)) (fun c => x1 (ix2 p c)) (fun c j => x2 (ix2 c j)) (fun c j => x3 (ix2 c j))
              (fun j => x4 (ix2 (0 : Fin 1) j))) (fun c j => x5 (ix2 c j)) (fun j => x6 (ix2 (0 : Fin 1) j)) c
            * x7 (ix2 c j) := by
  unfold k0_pay2
  refine (layer3_apply _ x7 _ p j).trans (Finset.sum_congr rfl fun c _ => congrArg (· * x7 (ix2 c j)) ?_)
  refine (layer2_apply _ x5 x6 _ _ _ _ p c).trans ?_
  exact congrArg (fun f => layer2 f (fun c j => x5 (ix2 c j)) (fun j => x6 (ix2 (0 : Fin 1) j)) c)
    (funext fun i => layer1_apply x0 x1 x2 x3 x4 _ _ _ _ _ p i)

/-! ## The head and the last cast -/

/-- The body's stored value at lane q, over any block v for the third product and any row r for the third bias. -/
theorem pay1_apply (v : FVec Ideal S8192x16 .f32) (r : FVec Ideal S1x16 .f32) (x9 : Vec Ideal S16x1 .bf16)
    (x10 : Vec Ideal S1x1 .f32) (q : Fin 8192) :
    k0_pay1 (F := Ideal) v r x9 x10 (ix3 (0 : Fin 1) (0 : Fin 1) q)
      = head (fun c => v (ix2 q c) + r (ix2 (0 : Fin 1) c)) (fun c => x9 (ix2 c (0 : Fin 1)))
          (x10 (ix2 (0 : Fin 1) (0 : Fin 1))) := by
  unfold k0_pay1
  refine (shapeCast_apply _ _ (ix3 (0 : Fin 1) (0 : Fin 1) q) (ix2 q (0 : Fin 1)) (by
    rw [Shape.rowMajor_val_two, Shape.rowMajor_val_three]
    show q.val * 1 + 0 = (0 * 1 + 0) * 8192 + q.val
    omega)).trans ?_
  refine congrArg Ideal.logistic (congrArg₂ (· + ·) ?_ ?_)
  · refine (dense_apply dot_S8192x16_S16x1_S8192x1_1_0_0_1_n_n.wf _ x9 _ q (0 : Fin 1)).trans
      (Finset.sum_congr rfl fun c _ => congrArg (· * x9 (ix2 c (0 : Fin 1))) ?_)
    exact bias_relu_apply v r _ _ q c
  · exact (broadcastTo_1b_ab_apply _ _ q (0 : Fin 1)).trans (congrFun (shapeCast_self x10 _) _)

/-! ## The body at one lane -/

/-- Lane q of the stored block is the perceptron of row q of the two feature blocks. -/
theorem body_apply (x0 x1 : Vec Ideal S8192x128 .f32) (x2 x3 : Vec Ideal S128x256 .bf16) (x4 : Vec Ideal S1x256 .f32)
    (x5 : Vec Ideal S256x64 .bf16) (x6 : Vec Ideal S1x64 .f32) (x7 : Vec Ideal S64x16 .bf16) (x8 : Vec Ideal S1x16 .f32)
    (x9 : Vec Ideal S16x1 .bf16) (x10 : Vec Ideal S1x1 .f32) (q : Fin 8192) :
    k0_pay1 (F := Ideal) (k0_pay2 (F := Ideal) x0 x1 x2 x3 x4 x5 x6 x7) (k0_pay3 (F := Ideal) x8) x9 x10
        (ix3 (0 : Fin 1) (0 : Fin 1) q)
      = mlp (fun k => x0 (ix2 q k)) (fun k => x1 (ix2 q k)) (fun k j => x2 (ix2 k j)) (fun k j => x3 (ix2 k j))
          (fun j => x4 (ix2 (0 : Fin 1) j)) (fun k j => x5 (ix2 k j)) (fun j => x6 (ix2 (0 : Fin 1) j))
          (fun k j => x7 (ix2 k j)) (fun j => x8 (ix2 (0 : Fin 1) j)) (fun k => x9 (ix2 k (0 : Fin 1)))
          (x10 (ix2 (0 : Fin 1) (0 : Fin 1))) := by
  refine (pay1_apply _ _ x9 x10 q).trans ?_
  refine congrArg (fun f => head f (fun k => x9 (ix2 k (0 : Fin 1))) (x10 (ix2 (0 : Fin 1) (0 : Fin 1)))) (funext fun c => ?_)
  exact congrArg₂ (· + ·) (pay2_apply x0 x1 x2 x3 x4 x5 x6 x7 q c) (congrFun (shapeCast_self x8 _) _)

end Cert.EdgeMlp

end
-- ==== Proof.KernelBlocks.lean ====
/-
  From the body's blocks to the kernel's whole output array.

  Grid point t fetches rows 8192 t … 8192 t + 8191 of the two gathered feature arrays and the whole of every weight
  and bias array, and writes back block (t, 0, 0) of the [123, 1, 8192] output. So entry (t, 0, q) of the output is
  the perceptron of row 8192 t + q of the two feature arrays, and the 123 blocks tile the output.
-/
import proofs.«413607_j66975720014384_3_alg».proof.Proof.Gen.KernelIdeal.Frame
import proofs.«413607_j66975720014384_3_alg».proof.Proof.KernelBody
import proofs.«413607_j66975720014384_3_alg».proof.Proof.Spec
import Idealize.ShloMosaic.Lib.Pipeline.Value
import Idealize.ShloMosaic.Lib.ValueIdx

noncomputable section

namespace Cert.EdgeMlp

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays the region finds, at their literal types -/

abbrev arrA (c : Dev nD) : Vec Ideal S1007616x128 .f32 := V m c main_v8
abbrev arrB (c : Dev nD) : Vec Ideal S1007616x128 .f32 := V m c main_v9
abbrev arrW1a (c : Dev nD) : Vec Ideal S128x256 .bf16 := V m c main_v11
abbrev arrW1b (c : Dev nD) : Vec Ideal S128x256 .bf16 := V m c main_v13
abbrev arrB1 (c : Dev nD) : Vec Ideal S1x256 .f32 := V m c main_v17
abbrev arrW2 (c : Dev nD) : Vec Ideal S256x64 .bf16 := V m c main_v14
abbrev arrB2 (c : Dev nD) : Vec Ideal S1x64 .f32 := V m c main_v18
abbrev arrW3 (c : Dev nD) : Vec Ideal S64x16 .bf16 := V m c main_v15
abbrev arrB3 (c : Dev nD) : Vec Ideal S1x16 .f32 := V m c main_v19
abbrev arrW4 (c : Dev nD) : Vec Ideal S16x1 .bf16 := V m c main_v16
abbrev arrB4 (c : Dev nD) : Vec Ideal S1x1 .f32 := V m c main_v20

/-- The edge row that entry (t, 0, q) of the output scores: 8192 t + q. -/
def rowOf (i : S123x1x8192.Idx) : Fin 1007616 := ⟨(i 0).val * 8192 + (i 2).val, by
  have h0 : (i 0).val < 123 := (i 0).isLt
  have h2 : (i 2).val < 8192 := (i 2).isLt
  omega⟩

/-- The output array as a function of the arrays the region finds. -/
def Gblk (c : Dev nD) : Vec Ideal S123x1x8192 .f32 := fun i =>
  mlp (fun k => arrA m c (ix2 (rowOf i) k)) (fun k => arrB m c (ix2 (rowOf i) k))
    (fun k j => arrW1a m c (ix2 k j)) (fun k j => arrW1b m c (ix2 k j)) (fun j => arrB1 m c (ix2 (0 : Fin 1) j))
    (fun k j => arrW2 m c (ix2 k j)) (fun j => arrB2 m c (ix2 (0 : Fin 1) j))
    (fun k j => arrW3 m c (ix2 k j)) (fun j => arrB3 m c (ix2 (0 : Fin 1) j))
    (fun k => arrW4 m c (ix2 k (0 : Fin 1))) (arrB4 m c (ix2 (0 : Fin 1) (0 : Fin 1)))

/-! ## Which block each window reads at grid point t -/

/-- The first feature window's block index is (t, 0). -/
theorem widx0 : ∀ t : Fin cfg0.N, win0_0.index t (0 : Fin 2) = t.val ∧ win0_0.index t (1 : Fin 2) = 0 :=
  (by decide +kernel : ∀ t : Fin grid0.N, _)

/-- The second feature window's block index is (t, 0). -/
theorem widx1 : ∀ t : Fin cfg0.N, win0_1.index t (0 : Fin 2) = t.val ∧ win0_1.index t (1 : Fin 2) = 0 :=
  (by decide +kernel : ∀ t : Fin grid0.N, _)

/-- Every weight and bias window's block index is (0, 0). -/
theorem idxW : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- The output window's block index is (t, 0, 0). -/
theorem idx11 : ∀ t : Fin cfg0.N, win0_11.index t (0 : Fin 3) = t.val ∧ win0_11.index t (1 : Fin 3) = 0
    ∧ win0_11.index t (2 : Fin 3) = 0 :=
  (by decide +kernel : ∀ t : Fin grid0.N, _)

/-! ## A block read through its window

A window's block at point t reads an array at the block index times the block size plus the position inside the block. -/

/-- Block t of a [1007616, 128] array through the first window: rows 8192 t … 8192 t + 8191. -/
theorem read_rows0 (X : Vec Ideal S1007616x128 .f32) (t : Fin cfg0.N) (q : Fin 8192) (k : Fin 128) (r : Fin 1007616)
    (hr : r.val = t.val * 8192 + q.val) (e0 : win0_0.index t (0 : Fin 2) = t.val) (e1 : win0_0.index t (1 : Fin 2) = 0) :
    (((cfg0.win 0).blk t).view.read (Elt Ideal) X : Vec Ideal S8192x128 .f32) (ix2 q k) = X (ix2 r k) := by
  show X (((cfg0.win 0).blk t).view.emb (ix2 q k)) = X (ix2 r k)
  refine congrArg X (funext fun a => Fin.ext ?_)
  match a with
  | ⟨0, _⟩ => show win0_0.index t (0 : Fin 2) * 8192 + 1 * q.val = r.val; rw [e0, hr]; omega
  | ⟨1, _⟩ => show win0_0.index t (1 : Fin 2) * 128 + 1 * k.val = k.val; rw [e1]; omega

/-- The same through the second window. -/
theorem read_rows1 (X : Vec Ideal S1007616x128 .f32) (t : Fin cfg0.N) (q : Fin 8192) (k : Fin 128) (r : Fin 1007616)
    (hr : r.val = t.val * 8192 + q.val) (e0 : win0_1.index t (0 : Fin 2) = t.val) (e1 : win0_1.index t (1 : Fin 2) = 0) :
    (((cfg0.win 1).blk t).view.read (Elt Ideal) X : Vec Ideal S8192x128 .f32) (ix2 q k) = X (ix2 r k) := by
  show X (((cfg0.win 1).blk t).view.emb (ix2 q k)) = X (ix2 r k)
  refine congrArg X (funext fun a => Fin.ext ?_)
  match a with
  | ⟨0, _⟩ => show win0_1.index t (0 : Fin 2) * 8192 + 1 * q.val = r.val; rw [e0, hr]; omega
  | ⟨1, _⟩ => show win0_1.index t (1 : Fin 2) * 128 + 1 * k.val = k.val; rw [e1]; omega

/-- A whole buffer read through a block of its own sizes at block index zero on every axis is its contents. -/
theorem read_zero (b : Ref sig .tc) (f : Fin b.ty.shape.rank → Nat) (hf : ∀ a, f a = 0)
    (inb : ∀ a, f a * b.ty.shape.size a + b.ty.shape.size a ≤ b.ty.shape.size a) (X : b.ty.Contents (Elt Ideal)) :
    ((Memref.whole b).access (Rect.unit (fun a => f a * b.ty.shape.size a) b.ty.shape.size inb) : View sig .tc _ _ _).read
      (Elt Ideal) X = X :=
  Memref.read_access_unit_zero (Elt Ideal) b (funext fun a => by rw [hf a, Nat.zero_mul]) inb X

/-! ## The blocks the body is given at point t, as rows and wholes of the arrays the region finds -/

/-- Row q of the first feature block at point t is row 8192 t + q of the first gathered array. -/
theorem blk0 (c : Dev nD) (t : Fin cfg0.N) (q : Fin 8192) (k : Fin 128) (r : Fin 1007616)
    (hr : r.val = t.val * 8192 + q.val) :
    (iblk m c 0 t : Vec Ideal S8192x128 .f32) (ix2 q k) = arrA m c (ix2 r k) :=
  read_rows0 (V m c (Pipeline.arrRef spec0 0)) t q k r hr (widx0 t).1 (widx0 t).2

/-- Row q of the second feature block at point t is row 8192 t + q of the second gathered array. -/
theorem blk1 (c : Dev nD) (t : Fin cfg0.N) (q : Fin 8192) (k : Fin 128) (r : Fin 1007616)
    (hr : r.val = t.val * 8192 + q.val) :
    (iblk m c 1 t : Vec Ideal S8192x128 .f32) (ix2 q k) = arrB m c (ix2 r k) :=
  read_rows1 (V m c (Pipeline.arrRef spec0 1)) t q k r hr (widx1 t).1 (widx1 t).2

/-- The first half of the first weight matrix, whole. -/
theorem blk2 (c : Dev nD) (t : Fin cfg0.N) : (iblk m c 2 t : Vec Ideal S128x256 .bf16) = arrW1a m c :=
  read_zero main_v11 (win0_2.index t) (fun a => by
    match a with
    | ⟨0, _⟩ => exact (idxW t).1.1
    | ⟨1, _⟩ => exact (idxW t).1.2) _ (V m c (Pipeline.arrRef spec0 2))

/-- The second half of the first weight matrix, whole. -/
theorem blk3 (c : Dev nD) (t : Fin cfg0.N) : (iblk m c 3 t : Vec Ideal S128x256 .bf16) = arrW1b m c :=
  read_zero main_v13 (win0_3.index t) (fun a => by
    match a with
    | ⟨0, _⟩ => exact (idxW t).2.1.1
    | ⟨1, _⟩ => exact (idxW t).2.1.2) _ (V m c (Pipeline.arrRef spec0 3))

/-- The first bias row, whole. -/
theorem blk4 (c : Dev nD) (t : Fin cfg0.N) : (iblk m c 4 t : Vec Ideal S1x256 .f32) = arrB1 m c :=
  read_zero main_v17 (win0_4.index t) (fun a => by
    match a with
    | ⟨0, _⟩ => exact (idxW t).2.2.1.1
    | ⟨1, _⟩ => exact (idxW t).2.2.1.2) _ (V m c (Pipeline.arrRef spec0 4))

/-- The second weight matrix, whole. -/
theorem blk5 (c : Dev nD) (t : Fin cfg0.N) : (iblk m c 5 t : Vec Ideal S256x64 .bf16) = arrW2 m c :=
  read_zero main_v14 (win0_5.index t) (fun a => by
    match a with
    | ⟨0, _⟩ => exact (idxW t).2.2.2.1.1
    | ⟨1, _⟩ => exact (idxW t).2.2.2.1.2) _ (V m c (Pipeline.arrRef spec0 5))

/-- The second bias row, whole. -/
theorem blk6 (c : Dev nD) (t : Fin cfg0.N) : (iblk m c 6 t : Vec Ideal S1x64 .f32) = arrB2 m c :=
  read_zero main_v18 (win0_6.index t) (fun a => by
    match a with
    | ⟨0, _⟩ => exact (idxW t).2.2.2.2.1.1
    | ⟨1, _⟩ => exact (idxW t).2.2.2.2.1.2) _ (V m c (Pipeline.arrRef spec0 6))

/-- The third weight matrix, whole. -/
theorem blk7 (c : Dev nD) (t : Fin cfg0.N) : (iblk m c 7 t : Vec Ideal S64x16 .bf16) = arrW3 m c :=
  read_zero main_v15 (win0_7.index t) (fun a => by
    match a with
    | ⟨0, _⟩ => exact (idxW t).2.2.2.2.2.1.1
    | ⟨1, _⟩ => exact (idxW t).2.2.2.2.2.1.2) _ (V m c (Pipeline.arrRef spec0 7))

/-- The third bias row, whole. -/
theorem blk8 (c : Dev nD) (t : Fin cfg0.N) : (iblk m c 8 t : Vec Ideal S1x16 .f32) = arrB3 m c :=
  read_zero main_v19 (win0_8.index t) (fun a => by
    match a with
    | ⟨0, _⟩ => exact (idxW t).2.2.2.2.2.2.1.1
    | ⟨1, _⟩ => exact (idxW t).2.2.2.2.2.2.1.2) _ (V m c (Pipeline.arrRef spec0 8))

/-- The last weight column, whole. -/
theorem blk9 (c : Dev nD) (t : Fin cfg0.N) : (iblk m c 9 t : Vec Ideal S16x1 .bf16) = arrW4 m c :=
  read_zero main_v16 (win0_9.index t) (fun a => by
    match a with
    | ⟨0, _⟩ => exact (idxW t).2.2.2.2.2.2.2.1.1
    | ⟨1, _⟩ => exact (idxW t).2.2.2.2.2.2.2.1.2) _ (V m c (Pipeline.arrRef spec0 9))

/-- The last bias, whole. -/
theorem blk10 (c : Dev nD) (t : Fin cfg0.N) : (iblk m c 10 t : Vec Ideal S1x1 .f32) = arrB4 m c :=
  read_zero main_v20 (win0_10.index t) (fun a => by
    match a with
    | ⟨0, _⟩ => exact (idxW t).2.2.2.2.2.2.2.2.1
    | ⟨1, _⟩ => exact (idxW t).2.2.2.2.2.2.2.2.2) _ (V m c (Pipeline.arrRef spec0 10))

/-! ## The output window -/

/-- Lane q of block t of a [123, 1, 8192] array through the output window: the array at that lane's place in it. -/
theorem read_out (X : Vec Ideal S123x1x8192 .f32) (t : Fin cfg0.N) (q : Fin 8192) :
    (((cfg0.win 11).blk t).view.read (Elt Ideal) X : Vec Ideal S1x1x8192 .f32) (ix3 (0 : Fin 1) (0 : Fin 1) q)
      = X (((cfg0.win 11).blk t).view.emb (ix3 (0 : Fin 1) (0 : Fin 1) q)) := rfl

/-- The edge row that lane q of the output block at point t scores is 8192 t + q. -/
theorem rowOf_emb (t : Fin cfg0.N) (q : Fin 8192) :
    (rowOf (((cfg0.win 11).blk t).view.emb (ix3 (0 : Fin 1) (0 : Fin 1) q))).val = t.val * 8192 + q.val := by
  show (win0_11.index t (0 : Fin 3) * 1 + 1 * 0) * 8192 + (win0_11.index t (2 : Fin 3) * 8192 + 1 * q.val) = _
  rw [(idx11 t).1, (idx11 t).2.2]
  omega

/-- What a write-back of the output window's buffer moves is the whole buffer. -/
theorem cut_out (X : Vec Ideal S1x1x8192 .f32) (t : Fin cfg0.N) : (cfg0.win 11).cut (grid0.coords t) X = X := rfl

/-- The body's stored lane q, over blocks that are row r of two arrays and the whole of nine more. -/
theorem lane_eq (x0 x1 : Vec Ideal S8192x128 .f32) (x2 x3 : Vec Ideal S128x256 .bf16) (x4 : Vec Ideal S1x256 .f32)
    (x5 : Vec Ideal S256x64 .bf16) (x6 : Vec Ideal S1x64 .f32) (x7 : Vec Ideal S64x16 .bf16) (x8 : Vec Ideal S1x16 .f32)
    (x9 : Vec Ideal S16x1 .bf16) (x10 : Vec Ideal S1x1 .f32)
    (A B : Vec Ideal S1007616x128 .f32) (W1a W1b : Vec Ideal S128x256 .bf16) (B1 : Vec Ideal S1x256 .f32)
    (W2 : Vec Ideal S256x64 .bf16) (B2 : Vec Ideal S1x64 .f32) (W3 : Vec Ideal S64x16 .bf16) (B3 : Vec Ideal S1x16 .f32)
    (W4 : Vec Ideal S16x1 .bf16) (B4 : Vec Ideal S1x1 .f32) (q : Fin 8192) (r : Fin 1007616)
    (h0 : ∀ k, x0 (ix2 q k) = A (ix2 r k)) (h1 : ∀ k, x1 (ix2 q k) = B (ix2 r k))
    (h2 : x2 = W1a) (h3 : x3 = W1b) (h4 : x4 = B1) (h5 : x5 = W2) (h6 : x6 = B2) (h7 : x7 = W3) (h8 : x8 = B3)
    (h9 : x9 = W4) (h10 : x10 = B4) :
    k0_pay1 (F := Ideal) (k0_pay2 (F := Ideal) x0 x1 x2 x3 x4 x5 x6 x7) (k0_pay3 (F := Ideal) x8) x9 x10
        (ix3 (0 : Fin 1) (0 : Fin 1) q)
      = mlp (fun k => A (ix2 r k)) (fun k => B (ix2 r k)) (fun k j => W1a (ix2 k j)) (fun k j => W1b (ix2 k j))
          (fun j => B1 (ix2 (0 : Fin 1) j)) (fun k j => W2 (ix2 k j)) (fun j => B2 (ix2 (0 : Fin 1) j))
          (fun k j => W3 (ix2 k j)) (fun j => B3 (ix2 (0 : Fin 1) j)) (fun k => W4 (ix2 k (0 : Fin 1)))
          (B4 (ix2 (0 : Fin 1) (0 : Fin 1))) := by
  subst h2 h3 h4 h5 h6 h7 h8 h9 h10
  rw [body_apply, funext h0, funext h1]

/-- What point t writes back is block t of the output array Gblk. -/
theorem flushed_eq (c : Dev nD) (t : Fin cfg0.N) :
    (dats m 0 c).flushed 11 t = ((cfg0.win 11).blk t).view.read (Elt Ideal) (Gblk m c) := by
  show (cfg0.win 11).cut (grid0.coords t) ((dats m 0 c).after 11 t) = _
  rw [after0_11]
  unfold out0_11
  rw [View.canon_unit_zero hz3]
  simp only [View.ld_unit_zero (S := S8192x128) hz2, View.ld_unit_zero (S := S128x256) hz2,
    View.ld_unit_zero (S := S1x256) hz2, View.ld_unit_zero (S := S256x64) hz2, View.ld_unit_zero (S := S1x64) hz2,
    View.ld_unit_zero (S := S64x16) hz2, View.ld_unit_zero (S := S1x16) hz2, View.ld_unit_zero (S := S16x1) hz2,
    View.ld_unit_zero (S := S1x1) hz2]
  rw [cut_out]
  funext y
  obtain ⟨a, b, q, rfl⟩ : ∃ (a : Fin 1) (b : Fin 1) (q : Fin 8192), y = ix3 a b q := ⟨y 0, y 1, y 2, eq_ix3 y⟩
  obtain rfl : a = 0 := Subsingleton.elim _ _
  obtain rfl : b = 0 := Subsingleton.elim _ _
  refine Eq.trans ?_ (read_out (Gblk m c) t q).symm
  unfold Gblk
  exact lane_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t) (arrA m c) (arrB m c) (arrW1a m c) (arrW1b m c)
    (arrB1 m c) (arrW2 m c) (arrB2 m c) (arrW3 m c) (arrB3 m c) (arrW4 m c) (arrB4 m c) q
    (rowOf (((cfg0.win 11).blk t).view.emb (ix3 (0 : Fin 1) (0 : Fin 1) q)))
    (fun k => blk0 m c t q k _ (rowOf_emb t q)) (fun k => blk1 m c t q k _ (rowOf_emb t q))
    (blk2 m c t) (blk3 m c t) (blk4 m c t) (blk5 m c t) (blk6 m c t) (blk7 m c t) (blk8 m c t) (blk9 m c t) (blk10 m c t)

/-- An entry of the output array is in point t's block iff each coordinate is in the block's range on its axis. -/
theorem mem_blk11 (t : Fin cfg0.N) (i : S123x1x8192.Idx) :
    i ∈ ((cfg0.win 11).blk t).view.set ↔ ∀ a : Fin 3, win0_11.index t a * S1x1x8192.size a ≤ (i a).val
      ∧ (i a).val < win0_11.index t a * S1x1x8192.size a + S1x1x8192.size a := by
  show i ∈ ((View.whole main_v21).slice (win0_11.rect t)).set ↔ _
  rw [View.set_slice_whole, Rect.mem_set_unit]
  exact Iff.rfl

/-- Entry (p, 0, q) of the output array is in the block of point p, and every point writes its block back. -/
theorem covered (i : S123x1x8192.Idx) :
    ∃ t : Fin cfg0.N, (cfg0.win 11).flush t = true ∧ i ∈ ((cfg0.win 11).blk t).view.set := by
  have h0 : (i 0).val < 123 := (i 0).isLt
  have h1 : (i 1).val < 1 := (i 1).isLt
  have h2 : (i 2).val < 8192 := (i 2).isLt
  have hN : cfg0.N = 123 := N_0
  obtain ⟨t, ht⟩ : ∃ t : Fin cfg0.N, t.val = (i 0).val := ⟨⟨(i 0).val, by omega⟩, rfl⟩
  refine ⟨t, flush0_11 t, ?_⟩
  rw [mem_blk11]
  obtain ⟨e0, e1, e2⟩ := idx11 t
  intro a
  match a with
  | ⟨0, _⟩ =>
    show win0_11.index t (0 : Fin 3) * 1 ≤ (i 0).val ∧ (i 0).val < win0_11.index t (0 : Fin 3) * 1 + 1
    rw [e0, ht]; omega
  | ⟨1, _⟩ =>
    show win0_11.index t (1 : Fin 3) * 1 ≤ (i 1).val ∧ (i 1).val < win0_11.index t (1 : Fin 3) * 1 + 1
    rw [e1]; omega
  | ⟨2, _⟩ =>
    show win0_11.index t (2 : Fin 3) * 8192 ≤ (i 2).val ∧ (i 2).val < win0_11.index t (2 : Fin 3) * 8192 + 8192
    rw [e2]; omega

/-! ## The whole output array -/

/-- The 123 blocks tile the output, and block t holds the perceptron of rows 8192 t … 8192 t + 8191. -/
theorem final_blocks (c : Dev nD) : (dats m 0 c).arrAt 11 cfg0.N = Gblk m c :=
  (dats m 0 c).arrAt_eq_of_cover 11 (Gblk m c) (fun t _ => flushed_eq m c t) covered

end Cert.EdgeMlp

end
-- ==== Proof.LibRows.lean ====
/-
  General lemmas: jnp's row take `x[idx, :]` and row accumulation `zeros.at[idx].add(u)` read at an index.

  `Host.gather` with offset_dims [1], collapsed_slice_dims [0], start_index_map [0], index_vector_dim 1 and
  slice sizes [1, C], over an operand [N, C] and start indices [K, 1], reads at (k, c) the operand's row
  idx[k, 0] (read signed, clamped into [0, N − 1]) at column c.
  The host's float scatter with an add body at the ideal values (`Ideal.hostScatterAdd`), with
  inserted_window_dims [0], scatter_dims_to_operand_dims [0], index_vector_dim 1 over indices [K, 1]:
  into a vector [N] from updates [K] (no window axis), and into an array [N, C] from updates [K, C]
  (update_window_dims [1]): entry i (resp. (i, c)) is the operand's plus the sum of the updates k
  (resp. (k, c)) whose index word idx[k, 0], read signed, is i.
-/
import Idealize.ShloMosaic.PureOps.Ideal
import Idealize.ShloMosaic.Lib.ValueIdx
import Idealize.ShloMosaic.Lib.ValueIdxRank1

noncomputable section

open scoped BigOperators

namespace Cert.Lib.Rows

open Idealize.ShloMosaic Idealize.ShloMosaic.ValueIdx

/-- The dimension numbers of a row take: operand [N, C], start indices [K, 1], result [K, C]. -/
abbrev gatherDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (k, c): the operand at row idx[k, 0], read signed and clamped into [0, N − 1], column c. -/
theorem gather_rows_apply {α : Type} {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (c : Fin C) :
    Host.gather (gatherDims N C K wf) x idx (ix2 k c)
      = x (ix2 ⟨min (idx (ix2 k (0 : Fin 1))).toInt.toNat (N - 1), by omega⟩ c) := by
  unfold Host.gather
  congr 1
  funext a
  refine Fin.ext ?_
  match a with
  | ⟨0, _⟩ =>
    -- the collapsed axis: the clamped start index, no batching and no offset coordinate
    show (gatherDims N C K wf).start (ix2 k c) idx 0 + (gatherDims N C K wf).batchCoord (ix2 k c) 0
      + (gatherDims N C K wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C K wf).startIndexMap from List.mem_singleton.mpr rfl)]
    have hsi : (gatherDims N C K wf).siIdx (ix2 k c) ⟨List.idxOf (0 : Fin 2) (gatherDims N C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    -- the offset axis: start 0, no batching coordinate, the result's column
    show (gatherDims N C K wf).start (ix2 k c) idx 1 + (gatherDims N C K wf).batchCoord (ix2 k c) 1
      + (gatherDims N C K wf).offCoord (ix2 k c) 1 = c.val
    rw [GatherDims.batchCoord_eq_zero _ _ _ List.not_mem_nil]
    have hst : (gatherDims N C K wf).start (ix2 k c) idx 1 = 0 := by
      unfold GatherDims.start
      rw [dif_neg (show (1 : Fin 2) ∉ (gatherDims N C K wf).startIndexMap from by
        intro h; exact Nat.one_ne_zero (congrArg Fin.val (List.mem_singleton.mp h)))]
    have hoff : (gatherDims N C K wf).offCoord (ix2 k c) 1 = c.val := by
      unfold GatherDims.offCoord
      rw [dif_pos (show (1 : Fin 2) ∈ (gatherDims N C K wf).sKept from
        (GatherDims.mem_sKept _ _).mpr ⟨fun h => Nat.one_ne_zero (congrArg Fin.val (List.mem_singleton.mp h)), List.not_mem_nil⟩)]
      rfl
    rw [hst, hoff]; simp

/-- An update lands at `i` exactly when, on every axis, its start plus its window coordinate is `i`'s coordinate,
    as integers (which forces the landing index into range on that axis). -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hr
      have hv : (d.start j idx a + (d.window j a : Int)).toNat = (i a).val :=
        congrArg Fin.val (congrFun (Option.some.inj h) a)
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    show (d.start j idx a + (d.window j a : Int)).toNat = (i a).val
    have := h a
    omega

/-- A sum over a rank-1 index set is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulation into a vector [N] from updates [K] at indices [K, 1]. -/
abbrev scatterVecDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- On the vector's one axis the start of update k is its index word idx[k, 0], read signed. -/
private theorem vec_start {N K w : Nat}
    (wf : ScatterDims.WF ⟨1, ![N]⟩ ⟨2, ![K, 1]⟩ ⟨1, ![K]⟩ [] [0] [0] 1)
    (idx : IVec ⟨2, ![K, 1]⟩ w) (k : Fin K) :
    (scatterVecDims N K wf).start (ix1 k) idx (0 : Fin 1) = (idx (ix2 k (0 : Fin 1))).toInt := by
  unfold ScatterDims.start
  rw [dif_pos (show (0 : Fin 1) ∈ (scatterVecDims N K wf).scatterDimsToOperandDims from List.mem_singleton.mpr rfl)]
  have hsi : (scatterVecDims N K wf).siIdx (ix1 k)
      ⟨List.idxOf (0 : Fin 1) (scatterVecDims N K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The vector's one axis is an inserted window axis: no window coordinate. -/
private theorem vec_window {N K : Nat}
    (wf : ScatterDims.WF ⟨1, ![N]⟩ ⟨2, ![K, 1]⟩ ⟨1, ![K]⟩ [] [0] [0] 1) (k : Fin K) :
    (scatterVecDims N K wf).window (ix1 k) (0 : Fin 1) = 0 := rfl

/-- Update k lands at entry i exactly when its index word, read signed, is i. -/
private theorem vec_resultIdx? {N K w : Nat}
    (wf : ScatterDims.WF ⟨1, ![N]⟩ ⟨2, ![K, 1]⟩ ⟨1, ![K]⟩ [] [0] [0] 1)
    (idx : IVec ⟨2, ![K, 1]⟩ w) (k : Fin K) (i : Fin N) :
    (scatterVecDims N K wf).resultIdx? (ix1 k) idx = some (ix1 i)
      ↔ (idx (ix2 k (0 : Fin 1))).toInt = (i.val : Int) := by
  rw [resultIdx?_eq_some_iff]
  constructor
  · intro h
    have h0 := h (0 : Fin 1)
    rw [vec_start, vec_window] at h0
    simpa using h0
  · intro h a
    obtain rfl : a = (0 : Fin 1) := Subsingleton.elim _ _
    rw [vec_start, vec_window]
    simpa using h

/-- Entry i of the accumulated vector: the operand's plus the updates whose index word is i. -/
theorem hostScatterAdd_vec_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal) (i : Fin N) :
    Ideal.hostScatterAdd (scatterVecDims N K wf) x idx upd (ix1 i)
      = x (ix1 i) + ∑ k : Fin K, if (idx (ix2 k (0 : Fin 1))).toInt = (i.val : Int) then upd (ix1 k) else 0 := by
  unfold Ideal.hostScatterAdd
  refine congrArg (x (ix1 i) + ·) ?_
  rw [Finset.sum_filter, sum_idx1]
  refine Finset.sum_congr rfl fun k _ => ?_
  exact if_congr (vec_resultIdx? wf idx k i) rfl rfl

/-- The dimension numbers of an accumulation of rows into [N, C] from updates [K, C] at indices [K, 1]. -/
abbrev scatterRowsDims (N C K : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

/-- On the row axis the start of update (k, c') is its index word idx[k, 0], read signed. -/
private theorem rows_start0 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (0 : Fin 2) = (idx (ix2 k (0 : Fin 1))).toInt := by
  unfold ScatterDims.start
  rw [dif_pos (show (0 : Fin 2) ∈ (scatterRowsDims N C K wf).scatterDimsToOperandDims from List.mem_singleton.mpr rfl)]
  have hsi : (scatterRowsDims N C K wf).siIdx (ix2 k c')
      ⟨List.idxOf (0 : Fin 2) (scatterRowsDims N C K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The column axis is not named by the index map: its start is 0. -/
private theorem rows_start1 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (1 : Fin 2) = 0 := by
  unfold ScatterDims.start
  rw [dif_neg (show (1 : Fin 2) ∉ (scatterRowsDims N C K wf).scatterDimsToOperandDims from fun h =>
    Nat.one_ne_zero (congrArg Fin.val (List.mem_singleton.mp h)))]

/-- The row axis is an inserted window axis: no window coordinate. -/
private theorem rows_window0 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (0 : Fin 2) = 0 := rfl

/-- The column axis carries the update's window axis: the window coordinate is the update's column. -/
private theorem rows_window1 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (1 : Fin 2) = c'.val := rfl

/-- Update (k, c') lands at entry (i, c) exactly when its index word, read signed, is i and its column is c. -/
private theorem rows_resultIdx? {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) (i : Fin N) (c : Fin C) :
    (scatterRowsDims N C K wf).resultIdx? (ix2 k c') idx = some (ix2 i c)
      ↔ (idx (ix2 k (0 : Fin 1))).toInt = (i.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    have h0' : (idx (ix2 k (0 : Fin 1))).toInt + ((0 : Nat) : Int) = (i.val : Int) := h0
    have h1' : (0 : Int) + (c'.val : Int) = (c.val : Int) := h1
    exact ⟨by omega, Fin.ext (by omega)⟩
  · rintro ⟨h, rfl⟩ a
    match a with
    | ⟨0, _⟩ =>
      show (scatterRowsDims N C K wf).start (ix2 k c') idx (0 : Fin 2)
        + ((scatterRowsDims N C K wf).window (ix2 k c') (0 : Fin 2) : Int) = (i.val : Int)
      rw [rows_start0, rows_window0]
      omega
    | ⟨1, _⟩ =>
      show (scatterRowsDims N C K wf).start (ix2 k c') idx (1 : Fin 2)
        + ((scatterRowsDims N C K wf).window (ix2 k c') (1 : Fin 2) : Int) = (c'.val : Int)
      rw [rows_start1, rows_window1]
      omega

/-- Entry (i, c) of the accumulated array: the operand's plus the updates (k, c) whose index word is i. -/
theorem hostScatterAdd_rows_apply {N C K w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (c : Fin C) :
    Ideal.hostScatterAdd (scatterRowsDims N C K wf) x idx upd (ix2 i c)
      = x (ix2 i c) + ∑ k : Fin K, if (idx (ix2 k (0 : Fin 1))).toInt = (i.val : Int) then upd (ix2 k c) else 0 := by
  unfold Ideal.hostScatterAdd
  refine congrArg (x (ix2 i c) + ·) ?_
  rw [Finset.sum_filter, sum_idx2]
  refine Finset.sum_congr rfl fun k _ => ?_
  simp only [rows_resultIdx?]
  by_cases h : (idx (ix2 k (0 : Fin 1))).toInt = (i.val : Int)
  · -- the row matches: of the columns only c' = c survives
    simp only [h, true_and, if_true]
    rw [Finset.sum_ite_eq' Finset.univ c (fun c' => upd (ix2 k c'))]
    simp
  · -- the row does not match: every term is 0
    simp only [h, false_and, if_false]
    exact Finset.sum_const_zero

end Cert.Lib.Rows

end
-- ==== Proof.PreDecode.lean ====
/-
  What the precondition says of the index words: every word of edge_index is a valid numpy index of the node
  table, and such a word, normalised, passes the in-range test of a filling take.
-/
import proofs.«413607_j66975720014384_3_alg».proof.Pre_finite_inputs
import proofs.«413607_j66975720014384_3_alg».proof.Proof.Spec
import Idealize.ShloMosaic.Lib.ReduceAll
import Idealize.ShloMosaic.Lib.ValueIdx
import Idealize.ShloMosaic.Lib.StableHlo.Predicate

noncomputable section

namespace Cert.EdgeMlp

open Idealize.ShloMosaic Idealize.ShloMosaic.ValueIdx

/-! ## A valid word, normalised -/

/-- Read signed, the normalised word of a valid numpy index lies in [0, 99999]. A word w in [-100000, 0) becomes
    w + 100000, which is in [0, 100000) and so far from the 32-bit wrap that the machine sum is the integer sum; a
    word in [0, 100000) is left as it is. -/
theorem toInt_wrapWord (w : BitVec 32) (h : WordOk w) :
    0 ≤ (wrapWord w).toInt ∧ (wrapWord w).toInt ≤ 99999 := by
  obtain ⟨hlo, hhi⟩ := h
  rw [IntOp.cmpi_sge, show (4294867296#32 : BitVec 32).toInt = -100000 from by decide] at hlo
  rw [IntOp.cmpi_slt, show (100000#32 : BitVec 32).toInt = 100000 from by decide] at hhi
  unfold wrapWord Scalar.select
  split
  · next hneg =>
    -- the negative words: 100000 is added
    replace hneg : IntOp.cmpi .slt w 0#32 = 1#1 := hneg
    rw [IntOp.cmpi_slt, show (0#32 : BitVec 32).toInt = 0 from by decide] at hneg
    have e : (IntOp.addi w 100000#32).toInt = w.toInt + 100000 := by
      show (w + 100000#32).toInt = _
      rw [BitVec.toInt_add, show (100000#32 : BitVec 32).toInt = 100000 from by decide, Int.bmod_def]
      omega
    rw [e]; omega
  · next hpos =>
    -- the others are kept
    replace hpos : ¬ IntOp.cmpi .slt w 0#32 = 1#1 := hpos
    rw [IntOp.cmpi_slt, show (0#32 : BitVec 32).toInt = 0 from by decide] at hpos
    omega

/-- A valid numpy index, normalised, lies in [0, 99999] signed: the test a filling take makes. -/
theorem wrap_inrange (w : BitVec 32) (h : WordOk w) :
    IntOp.cmpi .sge (wrapWord w) 0#32 = 1#1 ∧ IntOp.cmpi .sle (wrapWord w) 99999#32 = 1#1 := by
  obtain ⟨h0, h1⟩ := toInt_wrapWord w h
  rw [IntOp.cmpi_sge, IntOp.cmpi_sle, show (0#32 : BitVec 32).toInt = 0 from by decide,
    show (99999#32 : BitVec 32).toInt = 99999 from by decide]
  exact ⟨h0, h1⟩

/-! ## The precondition read back at one word -/

/-- The precondition's last stretch of operations ends in the conjunction of what came before with the "all" of
    (-100000 ≤ edge_index) ∧ (edge_index < 100000), both signed and against broadcast scalars. If the stretch's result
    is 1, the conjunction's right factor is 1; an "all" that is 1 met a 1 at every index; and the element there is the
    conjunction of the two comparisons of that word with the two constants. -/
theorem words_ok_of_tail [Cert.Pre_finite_inputs.Facts] (x1 : IVec Cert.Pre_finite_inputs.S2x1000000 32)
    (x8 : FVec Ideal Cert.Pre_finite_inputs.S16x1 .f32) (x9 : FVec Ideal Cert.Pre_finite_inputs.S1 .f32)
    (v : IVec Cert.Pre_finite_inputs.S_ 1) (j : Cert.Pre_finite_inputs.S_.Idx)
    (e : Cert.Pre_finite_inputs.fn_part2 (F := Ideal) x1 x8 x9 v j = 1#1)
    (i : Cert.Pre_finite_inputs.S2x1000000.Idx) : WordOk (x1 i) := by
  -- a scalar's shape has one index
  haveI : Subsingleton Cert.Pre_finite_inputs.S_.Idx := ⟨fun _ _ => funext fun d => d.elim0⟩
  unfold Cert.Pre_finite_inputs.fn_part2 at e
  dsimp only at e
  have e2 := (IntOp.andi_eq_one.1 e).2
  have e3 := Host.reduce_andi_all _ _ _ _ j e2 i
  exact IntOp.andi_eq_one.1 e3

/-- The precondition, all ones, makes every index word a valid numpy index of the table. -/
theorem words_ok [Cert.Pre_finite_inputs.Facts]
    (x0 : FVec Ideal Cert.Pre_finite_inputs.S100000x128 .f32) (x1 : IVec Cert.Pre_finite_inputs.S2x1000000 32)
    (x2 : FVec Ideal Cert.Pre_finite_inputs.S256x256 .f32) (x3 : FVec Ideal Cert.Pre_finite_inputs.S256 .f32)
    (x4 : FVec Ideal Cert.Pre_finite_inputs.S256x64 .f32) (x5 : FVec Ideal Cert.Pre_finite_inputs.S64 .f32)
    (x6 : FVec Ideal Cert.Pre_finite_inputs.S64x16 .f32) (x7 : FVec Ideal Cert.Pre_finite_inputs.S16 .f32)
    (x8 : FVec Ideal Cert.Pre_finite_inputs.S16x1 .f32) (x9 : FVec Ideal Cert.Pre_finite_inputs.S1 .f32)
    (h : Cert.Pre_finite_inputs.fn (F := Ideal) x0 x1 x2 x3 x4 x5 x6 x7 x8 x9 = fun _ => 1#1)
    (a : Fin 2) (e : Fin 1000000) : WordOk (x1 (ix2 a e)) := by
  have e0 : Cert.Pre_finite_inputs.fn (F := Ideal) x0 x1 x2 x3 x4 x5 x6 x7 x8 x9 ix0 = 1#1 := congrFun h ix0
  -- the precondition's chain of operations ends in its last stretch, whatever the float conjuncts before it are
  unfold Cert.Pre_finite_inputs.fn Cert.Pre_finite_inputs.fn_part1 at e0
  exact words_ok_of_tail x1 x8 x9 _ ix0 e0 (ix2 a e)

end Cert.EdgeMlp

end
-- ==== Proof.HostStages.lean ====
/-
  The kernel program's index preparation and row take, as functions of the arguments.

  The program pads each row of edge_index from 1,000,000 to 1,007,616 words with zeros, joins the two padded rows
  into 2,015,232 words, and takes those rows of the node table with out-of-range rows filled: a word is normalised
  (a negative one has 100000 added), the table row at the normalised word (clamped) is gathered, and the row is
  kept where 0 ≤ normalised word ≤ 99999 and replaced by a fill value elsewhere. The first 1,007,616 rows of the
  result are the first endpoints' features, the rest the second endpoints'.
  For an edge e < 1,000,000 whose index word is a valid numpy index, the padded and joined word is the edge's own,
  the in-range test passes, and the row taken is the table row the word names.
-/
import proofs.«413607_j66975720014384_3_alg».proof.KernelIdeal
import proofs.«413607_j66975720014384_3_alg».proof.Proof.Gen.KernelIdeal
import proofs.«413607_j66975720014384_3_alg».proof.Proof.Spec
import proofs.«413607_j66975720014384_3_alg».proof.Proof.LibRows
import proofs.«413607_j66975720014384_3_alg».proof.Proof.PreDecode
import Idealize.ShloMosaic.Lib.Pipeline.Value
import Idealize.ShloMosaic.Lib.KernelVsHost
import Idealize.ShloMosaic.Lib.ValueIdx
import Idealize.ShloMosaic.PureOps.Reduce

noncomputable section

namespace Cert.EdgeMlp

open Cert.KernelIdeal Cert.KernelIdeal.Facts₀ Cert.KernelIdeal.Facts
open Idealize.ShloMosaic Idealize.ShloMosaic.ValueIdx

/-- The 2,015,232 index words the take reads: each row of edge_index padded with 7616 zeros, the two joined. -/
def takeWords (ei : IVec S2x1000000 32) : IVec S2015232 32 :=
  concatenate S2015232 0
    [⟨S1007616, pad S1007616 ![0] ![7616] ![0]
        (shapeCast _ (extractStridedSlice S1x1000000 ![0, 0] ei slices_S2x1000000_S1x1000000_0_0) shapeCasts_S1x1000000_S1000000)
        (id (constantI S_ 32 0#32)) pads_S1000000_S1007616_076160 h_S_⟩,
     ⟨S1007616, pad S1007616 ![0] ![7616] ![0]
        (shapeCast _ (extractStridedSlice S1x1000000 ![1, 0] ei slices_S2x1000000_S1x1000000_1_0) shapeCasts_S1x1000000_S1000000)
        (id (constantI S_ 32 0#32)) pads_S1000000_S1007616_076160 h_S_⟩]
    concatenates_S1007616_S1007616_S2015232_d0

/-- The gather's start indices: each word normalised (a negative one has 100000 added), as a column. -/
def takeStarts (w : IVec S2015232 32) : IVec S2015232x1 32 :=
  broadcastInDim S2015232x1 ![0] bcast_S2015232_S2015232x1_0
    (select (cmpi .slt w (broadcastInDim S2015232 ![] bcast_S_S2015232 (constantI S_ 32 0#32)))
      (addi w (broadcastInDim S2015232 ![] bcast_S_S2015232 (constantI S_ 32 100000#32))) w)

/-- The in-range mask of the take: 0 ≤ start ≤ 99999, signed, per row. -/
def takeMask (s : IVec S2015232x1 32) : IVec S2015232 1 :=
  Host.reduce IntOp.andi
    (andi (cmpi .sge s (broadcastInDim S2015232x1 ![] bcast_S_S2015232x1 (constantI S_ 32 0#32)))
      (cmpi .sle s (broadcastInDim S2015232x1 ![0, 1] bcast_S1x1_S2015232x1_0_1
        (broadcastInDim S1x1 ![1] bcast_S1_S1x1_1 (constantI S1 32 99999#32)))))
    (constantI S_ 1 1#1) reducesTo_S2015232x1_S2015232_d1 h_S_

/-- The filling take: the gathered row where the mask is set, the fill value elsewhere. -/
def takeRows (z : FVec Ideal S100000x128 .f32) (w : IVec S2015232 32) : FVec Ideal S2015232x128 .f32 :=
  select (broadcastInDim S2015232x128 ![0] bcast_S2015232_S2015232x128_0 (takeMask (takeStarts w)))
    (Host.gather gather_S100000x128_S2015232x1_S2015232x128_1_0_n_n_0_1_1128 z (takeStarts w))
    (broadcastInDim S2015232x128 ![] bcast_S_S2015232x128 (constant (F := Ideal) S_ .f32 0x7FC00000#32))

/-! ## The words -/

/-- Word e < 1,000,000 of the joined words is the edge's first index word: it lies in the first padded row, before
    the padding, and the row is row 0 of edge_index read flat. -/
theorem takeWords_first (ei : IVec S2x1000000 32) (e : Fin 1000000) :
    takeWords ei (ix1 (⟨e.val, by omega⟩ : Fin 2015232)) = ei (ix2 (0 : Fin 2) e) := by
  unfold takeWords
  refine (concatenate_pair_apply_left (t := S2015232) (s₁ := S1007616) (s₂ := S1007616) (0 : Fin 1) _ _ _ (ix1 (⟨e.val, by omega⟩ : Fin 2015232)) rfl
    (ix1 (⟨e.val, by omega⟩ : Fin 1007616)) (fun b => by match b with | ⟨0, _⟩ => rfl)).trans ?_
  refine (pad_apply_of_inside _ _ _ _ _ _ _ (ix1 (⟨e.val, by omega⟩ : Fin 1007616)) (ix1 e)
    (fun a => by match a with | ⟨0, _⟩ => show e.val = 0 + e.val * (0 + 1); omega)).trans ?_
  refine (shapeCast_apply _ _ (ix1 e) (ix2 (0 : Fin 1) e) (by
    rw [Shape.rowMajor_val_two, Shape.rowMajor_val_one]; show 0 * 1000000 + e.val = e.val; omega)).trans ?_
  exact extractStridedSlice_apply _ _ _ (ix2 (0 : Fin 1) e) (ix2 (0 : Fin 2) e)
    (fun a => by match a with | ⟨0, _⟩ => rfl | ⟨1, _⟩ => show e.val = 0 + e.val; omega)

/-- Word 1,007,616 + e of the joined words, e < 1,000,000, is the edge's second index word. -/
theorem takeWords_second (ei : IVec S2x1000000 32) (e : Fin 1000000) :
    takeWords ei (ix1 (⟨1007616 + e.val, by omega⟩ : Fin 2015232)) = ei (ix2 (1 : Fin 2) e) := by
  unfold takeWords
  refine (concatenate_pair_apply_right (t := S2015232) (s₁ := S1007616) (s₂ := S1007616) (0 : Fin 1) _ _ _ (ix1 (⟨1007616 + e.val, by omega⟩ : Fin 2015232)) rfl rfl
    (ix1 (⟨e.val, by omega⟩ : Fin 1007616)) (fun b hb => by match b with | ⟨0, _⟩ => exact absurd rfl hb)
    (by show e.val + 1007616 = 1007616 + e.val; omega)).trans ?_
  refine (pad_apply_of_inside _ _ _ _ _ _ _ (ix1 (⟨e.val, by omega⟩ : Fin 1007616)) (ix1 e)
    (fun a => by match a with | ⟨0, _⟩ => show e.val = 0 + e.val * (0 + 1); omega)).trans ?_
  refine (shapeCast_apply _ _ (ix1 e) (ix2 (0 : Fin 1) e) (by
    rw [Shape.rowMajor_val_two, Shape.rowMajor_val_one]; show 0 * 1000000 + e.val = e.val; omega)).trans ?_
  exact extractStridedSlice_apply _ _ _ (ix2 (0 : Fin 1) e) (ix2 (1 : Fin 2) e)
    (fun a => by match a with | ⟨0, _⟩ => rfl | ⟨1, _⟩ => show e.val = 0 + e.val; omega)

/-! ## The starts and the mask -/

/-- The start at row r is the row's word, normalised. -/
theorem takeStarts_apply (w : IVec S2015232 32) (r : Fin 2015232) (c : Fin 1) :
    takeStarts w (ix2 r c) = wrapWord (w (ix1 r)) := by
  unfold takeStarts
  exact broadcastInDim_apply _ _ _ (ix2 r c) (ix1 r) (fun a => by match a with | ⟨0, _⟩ => rfl)

/-- A fold by "and" from 1 over words that are all 1 is 1. -/
theorem fold_andi_one {ι : Type} (S : Finset ι) (g : ι → BitVec 1) (hg : ∀ i ∈ S, g i = 1#1) :
    S.fold IntOp.andi 1#1 g = 1#1 := by
  induction S using Finset.cons_induction with
  | empty => rfl
  | cons a S ha ih =>
    rw [Finset.fold_cons, hg a (Finset.mem_cons_self a S), ih fun i hi => hg i (Finset.mem_cons.2 (Or.inr hi))]
    decide

/-- The mask at row r is set when the row's start passes both tests: the "and" along the unit axis runs over the
    one entry of the row. -/
theorem takeMask_apply (s : IVec S2015232x1 32) (r : Fin 2015232)
    (h0 : IntOp.cmpi .sge (s (ix2 r (0 : Fin 1))) 0#32 = 1#1)
    (h1 : IntOp.cmpi .sle (s (ix2 r (0 : Fin 1))) 99999#32 = 1#1) : takeMask s (ix1 r) = 1#1 := by
  have hR : S2015232x1.Reduces [1] S2015232 := by decide
  unfold takeMask
  refine (Host.reduce_eq_fold_single IntOp.andi _ _ reducesTo_S2015232x1_S2015232_d1 hR h_S_ (ix1 r)).trans ?_
  refine fold_andi_one _ _ fun k _ => ?_
  have hl : hR.lift (ix1 r) k = ix2 r (0 : Fin 1) := by
    funext c
    refine Fin.ext ?_
    match c with
    | ⟨0, _⟩ => rfl
    | ⟨1, _⟩ =>
      have hk : k.val < 1 := k.isLt
      show k.val = 0
      omega
  rw [Function.comp_apply, hl]
  exact IntOp.andi_eq_one.2 ⟨h0, h1⟩

/-! ## The rows -/

/-- Row r of the take, when the row's word is a valid numpy index, is the table row the word names. -/
theorem takeRows_row (z : FVec Ideal S100000x128 .f32) (w : IVec S2015232 32) (r : Fin 2015232) (k : Fin 128)
    (hok : WordOk (w (ix1 r))) : takeRows z w (ix2 r k) = z (ix2 (node (w (ix1 r))) k) := by
  unfold takeRows
  rw [select_apply]
  have hm : broadcastInDim S2015232x128 ![0] bcast_S2015232_S2015232x128_0 (takeMask (takeStarts w)) (ix2 r k) = 1#1 := by
    refine (broadcastInDim_apply _ _ _ (ix2 r k) (ix1 r) (fun a => by match a with | ⟨0, _⟩ => rfl)).trans ?_
    obtain ⟨h0, h1⟩ := wrap_inrange _ hok
    exact takeMask_apply _ r (by rw [takeStarts_apply]; exact h0) (by rw [takeStarts_apply]; exact h1)
  rw [hm, select_one]
  refine (Cert.Lib.Rows.gather_rows_apply (N := 100000) (C := 128) (K := 2015232) (by omega)
    gather_S100000x128_S2015232x1_S2015232x128_1_0_n_n_0_1_1128_wf z (takeStarts w) r k).trans ?_
  refine congrArg (fun n : Fin 100000 => z (ix2 n k)) (Fin.ext ?_)
  show min (takeStarts w (ix2 r (0 : Fin 1))).toInt.toNat (100000 - 1)
    = min (wrapWord (w (ix1 r))).toInt.toNat (100000 - 1)
  rw [takeStarts_apply]

/-- Row e < 1,000,000 of the first half of the take is the table row the edge's first index word names. -/
theorem takeRows_first (z : FVec Ideal S100000x128 .f32) (ei : IVec S2x1000000 32) (e : Fin 1000000) (k : Fin 128)
    (hok : WordOk (ei (ix2 (0 : Fin 2) e))) :
    extractStridedSlice S1007616x128 ![0, 0] (takeRows z (takeWords ei)) slices_S2015232x128_S1007616x128_0_0
        (ix2 (⟨e.val, by omega⟩ : Fin 1007616) k)
      = z (ix2 (node (ei (ix2 (0 : Fin 2) e))) k) := by
  refine (extractStridedSlice_apply _ _ _ (ix2 (⟨e.val, by omega⟩ : Fin 1007616) k)
    (ix2 (⟨e.val, by omega⟩ : Fin 2015232) k) (fun a => by
      match a with
      | ⟨0, _⟩ => show e.val = 0 + e.val; omega
      | ⟨1, _⟩ => show k.val = 0 + k.val; omega)).trans ?_
  have hw := takeWords_first ei e
  rw [takeRows_row z _ _ k (by rw [hw]; exact hok), hw]

/-- Row e < 1,000,000 of the second half of the take is the table row the edge's second index word names. -/
theorem takeRows_second (z : FVec Ideal S100000x128 .f32) (ei : IVec S2x1000000 32) (e : Fin 1000000) (k : Fin 128)
    (hok : WordOk (ei (ix2 (1 : Fin 2) e))) :
    extractStridedSlice S1007616x128 ![1007616, 0] (takeRows z (takeWords ei)) slices_S2015232x128_S1007616x128_1007616_0
        (ix2 (⟨e.val, by omega⟩ : Fin 1007616) k)
      = z (ix2 (node (ei (ix2 (1 : Fin 2) e))) k) := by
  refine (extractStridedSlice_apply _ _ _ (ix2 (⟨e.val, by omega⟩ : Fin 1007616) k)
    (ix2 (⟨1007616 + e.val, by omega⟩ : Fin 2015232) k) (fun a => by
      match a with
      | ⟨0, _⟩ => show 1007616 + e.val = 1007616 + e.val; rfl
      | ⟨1, _⟩ => show k.val = 0 + k.val; omega)).trans ?_
  have hw := takeWords_second ei e
  rw [takeRows_row z _ _ k (by rw [hw]; exact hok), hw]

end Cert.EdgeMlp

end
-- ==== Proof.KernelHostRows.lean ====
/-
  The two gathered feature arrays the region finds: the first and the second 1,007,616 rows of the filling take of
  the node table at the padded, joined index words.
-/
import proofs.«413607_j66975720014384_3_alg».proof.Proof.Gen.KernelIdeal.Frame
import proofs.«413607_j66975720014384_3_alg».proof.Proof.Spec
import proofs.«413607_j66975720014384_3_alg».proof.Proof.HostStages
import Idealize.ShloMosaic.Lib.StableHlo.Run
import Idealize.ShloMosaic.Lib.Pipeline.Value
import Idealize.ShloMosaic.Lib.ValueIdx

noncomputable section

namespace Cert.EdgeMlp

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- Contents moved to a buffer's own type and back are the contents. -/
private theorem ofBuf_toBuf {T : BufTy} (x : StableHlo.TRef sig T) (v : T.Contents (Elt Ideal)) :
    x.ofBuf (x.toBuf v) = v := by
  obtain ⟨r, rfl, _, _⟩ := x
  rfl

set_option maxHeartbeats 1000000 in
theorem V_rowsA (c : Dev nD) : V m c main_v8 = extractStridedSlice S1007616x128 ![0, 0] (takeRows (m ((c : Thread nD τ).loc main_arg0)) (takeWords (m ((c : Thread nD τ).loc main_arg1)))) slices_S2015232x128_S1007616x128_0_0 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  simp only [ofBuf_toBuf]
  unfold takeRows takeMask
  generalize @Host.reduce S2015232x1 (BitVec 1) [1] S2015232 S_ = R
  rfl

set_option maxHeartbeats 1000000 in
theorem V_rowsB (c : Dev nD) : V m c main_v9 = extractStridedSlice S1007616x128 ![1007616, 0] (takeRows (m ((c : Thread nD τ).loc main_arg0)) (takeWords (m ((c : Thread nD τ).loc main_arg1)))) slices_S2015232x128_S1007616x128_1007616_0 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  simp only [ofBuf_toBuf]
  unfold takeRows takeMask
  generalize @Host.reduce S2015232x1 (BitVec 1) [1] S2015232 S_ = R
  rfl

end Cert.EdgeMlp

end
-- ==== Proof.KernelHostWeights.lean ====
/-
  The weight and bias arrays the region finds, read at an index: the two halves of the first weight matrix (rows
  0 … 127 and 128 … 255), the other three weight matrices (a change of float format is the identity at the ideal
  values), and the four bias vectors laid out as one-row matrices.
-/
import proofs.«413607_j66975720014384_3_alg».proof.Proof.Gen.KernelIdeal.Frame
import proofs.«413607_j66975720014384_3_alg».proof.Proof.Spec
import Idealize.ShloMosaic.Lib.StableHlo.Run
import Idealize.ShloMosaic.Lib.Pipeline.Value
import Idealize.ShloMosaic.Lib.ValueIdx

noncomputable section

namespace Cert.EdgeMlp

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

set_option maxHeartbeats 1000000 in
theorem V_W1a (c : Dev nD) : V m c main_v11 = truncf (F := Ideal) .bf16 (extractStridedSlice S128x256 ![0, 0] (m ((c : Thread nD τ).loc main_arg2)) slices_S256x256_S128x256_0_0) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

set_option maxHeartbeats 1000000 in
theorem V_W1b (c : Dev nD) : V m c main_v13 = truncf (F := Ideal) .bf16 (extractStridedSlice S128x256 ![128, 0] (m ((c : Thread nD τ).loc main_arg2)) slices_S256x256_S128x256_128_0) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

set_option maxHeartbeats 1000000 in
theorem V_W2 (c : Dev nD) : V m c main_v14 = truncf (F := Ideal) .bf16 (m ((c : Thread nD τ).loc main_arg4)) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

set_option maxHeartbeats 1000000 in
theorem V_W3 (c : Dev nD) : V m c main_v15 = truncf (F := Ideal) .bf16 (m ((c : Thread nD τ).loc main_arg6)) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

set_option maxHeartbeats 1000000 in
theorem V_W4 (c : Dev nD) : V m c main_v16 = truncf (F := Ideal) .bf16 (m ((c : Thread nD τ).loc main_arg8)) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

set_option maxHeartbeats 1000000 in
theorem V_B1 (c : Dev nD) : V m c main_v17 = shapeCast _ (m ((c : Thread nD τ).loc main_arg3)) shapeCasts_S256_S1x256 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

set_option maxHeartbeats 1000000 in
theorem V_B2 (c : Dev nD) : V m c main_v18 = shapeCast _ (m ((c : Thread nD τ).loc main_arg5)) shapeCasts_S64_S1x64 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

set_option maxHeartbeats 1000000 in
theorem V_B3 (c : Dev nD) : V m c main_v19 = shapeCast _ (m ((c : Thread nD τ).loc main_arg7)) shapeCasts_S16_S1x16 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

set_option maxHeartbeats 1000000 in
theorem V_B4 (c : Dev nD) : V m c main_v20 = shapeCast _ (m ((c : Thread nD τ).loc main_arg9)) shapeCasts_S1_S1x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-! ## Read at an index -/

theorem W1a_apply (c : Dev nD) (k : Fin 128) (j : Fin 256) :
    (V m c main_v11 : Vec Ideal S128x256 .bf16) (ix2 k j) = ((m ((c : Thread nD τ).loc main_arg2)) : Vec Ideal S256x256 .f32) (ix2 (Fin.castAdd 128 k) j) := by
  rw [V_W1a]
  refine (extractStridedSlice_apply _ _ slices_S256x256_S128x256_0_0 (ix2 k j) (ix2 (Fin.castAdd 128 k) j) fun a => ?_)
  match a with
  | ⟨0, _⟩ => show k.val = 0 + k.val; omega
  | ⟨1, _⟩ => show j.val = 0 + j.val; omega

theorem W1b_apply (c : Dev nD) (k : Fin 128) (j : Fin 256) :
    (V m c main_v13 : Vec Ideal S128x256 .bf16) (ix2 k j) = ((m ((c : Thread nD τ).loc main_arg2)) : Vec Ideal S256x256 .f32) (ix2 (Fin.natAdd 128 k) j) := by
  rw [V_W1b]
  refine (extractStridedSlice_apply _ _ slices_S256x256_S128x256_128_0 (ix2 k j) (ix2 (Fin.natAdd 128 k) j) fun a => ?_)
  match a with
  | ⟨0, _⟩ => show 128 + k.val = 128 + k.val; rfl
  | ⟨1, _⟩ => show j.val = 0 + j.val; omega

theorem W2_apply (c : Dev nD) (i : S256x64.Idx) : (V m c main_v14 : Vec Ideal S256x64 .bf16) i = ((m ((c : Thread nD τ).loc main_arg4)) : Vec Ideal S256x64 .f32) i := by
  rw [V_W2]; rfl
theorem W3_apply (c : Dev nD) (i : S64x16.Idx) : (V m c main_v15 : Vec Ideal S64x16 .bf16) i = ((m ((c : Thread nD τ).loc main_arg6)) : Vec Ideal S64x16 .f32) i := by
  rw [V_W3]; rfl
theorem W4_apply (c : Dev nD) (i : S16x1.Idx) : (V m c main_v16 : Vec Ideal S16x1 .bf16) i = ((m ((c : Thread nD τ).loc main_arg8)) : Vec Ideal S16x1 .f32) i := by
  rw [V_W4]; rfl

theorem B1_apply (c : Dev nD) (j : Fin 256) : (V m c main_v17 : Vec Ideal S1x256 .f32) (ix2 (0 : Fin 1) j) = ((m ((c : Thread nD τ).loc main_arg3)) : Vec Ideal S256 .f32) (ix1 j) := by
  rw [V_B1]
  exact shapeCast_apply _ shapeCasts_S256_S1x256 (ix2 (0 : Fin 1) j) (ix1 j)
    (by rewrite [Shape.rowMajor_val_two, Shape.rowMajor_val_one]; show j.val = 0 * 256 + j.val; omega)
theorem B2_apply (c : Dev nD) (j : Fin 64) : (V m c main_v18 : Vec Ideal S1x64 .f32) (ix2 (0 : Fin 1) j) = ((m ((c : Thread nD τ).loc main_arg5)) : Vec Ideal S64 .f32) (ix1 j) := by
  rw [V_B2]
  exact shapeCast_apply _ shapeCasts_S64_S1x64 (ix2 (0 : Fin 1) j) (ix1 j)
    (by rewrite [Shape.rowMajor_val_two, Shape.rowMajor_val_one]; show j.val = 0 * 64 + j.val; omega)
theorem B3_apply (c : Dev nD) (j : Fin 16) : (V m c main_v19 : Vec Ideal S1x16 .f32) (ix2 (0 : Fin 1) j) = ((m ((c : Thread nD τ).loc main_arg7)) : Vec Ideal S16 .f32) (ix1 j) := by
  rw [V_B3]
  exact shapeCast_apply _ shapeCasts_S16_S1x16 (ix2 (0 : Fin 1) j) (ix1 j)
    (by rewrite [Shape.rowMajor_val_two, Shape.rowMajor_val_one]; show j.val = 0 * 16 + j.val; omega)
theorem B4_apply (c : Dev nD) : (V m c main_v20 : Vec Ideal S1x1 .f32) (ix2 (0 : Fin 1) (0 : Fin 1)) = ((m ((c : Thread nD τ).loc main_arg9)) : Vec Ideal S1 .f32) (ix1 (0 : Fin 1)) := by
  rw [V_B4]
  exact shapeCast_apply _ shapeCasts_S1_S1x1 (ix2 (0 : Fin 1) (0 : Fin 1)) (ix1 (0 : Fin 1))
    (by rewrite [Shape.rowMajor_val_two, Shape.rowMajor_val_one]; rfl)

end Cert.EdgeMlp

end
-- ==== Proof.KernelValue.lean ====
/-
  The kernel program's result is the score function G of the argument arrays.

  After the region the program flattens the [123, 1, 8192] output to 1,007,616 scores and keeps the first 1,000,000:
  score e is entry (e / 8192, 0, e mod 8192) of the output, the perceptron of row e of the two feature arrays. Row e
  of the first (second) feature array is the node-table row that the edge's first (second) index word names, because
  every index word is a valid numpy index and e is not a padding row; the weight and bias arrays the region finds are
  the arguments (halved, or laid out as a row).
-/
import proofs.«413607_j66975720014384_3_alg».proof.Proof.Gen.KernelIdeal.Frame
import proofs.«413607_j66975720014384_3_alg».proof.Proof.KernelBlocks
import proofs.«413607_j66975720014384_3_alg».proof.Proof.KernelHostRows
import proofs.«413607_j66975720014384_3_alg».proof.Proof.KernelHostWeights
import proofs.«413607_j66975720014384_3_alg».proof.Proof.HostStages
import proofs.«413607_j66975720014384_3_alg».proof.Proof.Spec
import Idealize.ShloMosaic.Lib.StableHlo.Run
import Idealize.ShloMosaic.Lib.Pipeline.Value
import Idealize.ShloMosaic.Lib.ValueIdx

noncomputable section

namespace Cert.EdgeMlp

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The perceptron depends only on the values of its eleven arguments. -/
theorem mlp_congr {a a' b b' : Fin 128 → EReal} {Wa Wa' Wb Wb' : Fin 128 → Fin 256 → EReal} {c1 c1' : Fin 256 → EReal}
    {W2 W2' : Fin 256 → Fin 64 → EReal} {c2 c2' : Fin 64 → EReal} {W3 W3' : Fin 64 → Fin 16 → EReal} {c3 c3' : Fin 16 → EReal}
    {W4 W4' : Fin 16 → EReal} {c4 c4' : EReal}
    (ha : ∀ k, a k = a' k) (hb : ∀ k, b k = b' k) (hWa : ∀ k j, Wa k j = Wa' k j) (hWb : ∀ k j, Wb k j = Wb' k j)
    (hc1 : ∀ j, c1 j = c1' j) (hW2 : ∀ k j, W2 k j = W2' k j) (hc2 : ∀ j, c2 j = c2' j) (hW3 : ∀ k j, W3 k j = W3' k j)
    (hc3 : ∀ j, c3 j = c3' j) (hW4 : ∀ k, W4 k = W4' k) (hc4 : c4 = c4') :
    mlp a b Wa Wb c1 W2 c2 W3 c3 W4 c4 = mlp a' b' Wa' Wb' c1' W2' c2' W3' c3' W4' c4' := by
  obtain rfl : a = a' := funext ha
  obtain rfl : b = b' := funext hb
  obtain rfl : Wa = Wa' := funext fun k => funext (hWa k)
  obtain rfl : Wb = Wb' := funext fun k => funext (hWb k)
  obtain rfl : c1 = c1' := funext hc1
  obtain rfl : W2 = W2' := funext fun k => funext (hW2 k)
  obtain rfl : c2 = c2' := funext hc2
  obtain rfl : W3 = W3' := funext fun k => funext (hW3 k)
  obtain rfl : c3 = c3' := funext hc3
  obtain rfl : W4 = W4' := funext hW4
  subst hc4
  rfl

/-- The tail at score e: the flattened output's word e is entry (e / 8192, 0, e mod 8192). -/
theorem tail_apply (X : Vec Ideal S123x1x8192 .f32) (e : Fin 1000000) :
    extractStridedSlice S1000000 ![0] (shapeCast _ X shapeCasts_S123x1x8192_S1007616) slices_S1007616_S1000000_0 (ix1 e)
      = X (ix3 (⟨e.val / 8192, by omega⟩ : Fin 123) (0 : Fin 1) (⟨e.val % 8192, Nat.mod_lt _ (by decide)⟩ : Fin 8192)) := by
  refine (extractStridedSlice_apply _ _ slices_S1007616_S1000000_0 (ix1 e) (ix1 (⟨e.val, by omega⟩ : Fin 1007616)) fun a => ?_).trans ?_
  · match a with
    | ⟨0, _⟩ => show e.val = 0 + e.val; omega
  · refine shapeCast_apply X shapeCasts_S123x1x8192_S1007616 _ _ ?_
    rewrite [Shape.rowMajor_val_three, Shape.rowMajor_val_one]
    show (e.val / 8192 * 1 + 0) * 8192 + e.val % 8192 = e.val
    omega

/-- The edge row that entry (e / 8192, 0, e mod 8192) scores is e. -/
theorem rowOf_tail (e : Fin 1000000) :
    rowOf (ix3 (⟨e.val / 8192, by omega⟩ : Fin 123) (0 : Fin 1) (⟨e.val % 8192, Nat.mod_lt _ (by decide)⟩ : Fin 8192))
      = (⟨e.val, by omega⟩ : Fin 1007616) := by
  apply Fin.ext
  show e.val / 8192 * 8192 + e.val % 8192 = e.val
  omega

/-- Score e of the kernel program, from the output array as a function of the arrays the region finds. -/
theorem score_apply (c : Dev nD)
    (hok : ∀ (a : Fin 2) (e : Fin 1000000), WordOk (((m ((c : Thread nD τ).loc main_arg1)) : IVec S2x1000000 32) (ix2 a e))) (e : Fin 1000000) :
    Gblk m c (ix3 (⟨e.val / 8192, by omega⟩ : Fin 123) (0 : Fin 1) (⟨e.val % 8192, Nat.mod_lt _ (by decide)⟩ : Fin 8192))
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix1 e) := by
  unfold Gblk G
  rw [rowOf_tail]
  refine mlp_congr (fun k => ?_) (fun k => ?_) (fun k j => ?_) (fun k j => ?_) (fun j => ?_) (fun k j => ?_) (fun j => ?_)
    (fun k j => ?_) (fun j => ?_) (fun k => ?_) ?_
  · show (V m c main_v8 : Vec Ideal S1007616x128 .f32) (ix2 (⟨e.val, by omega⟩ : Fin 1007616) k) = _
    rw [V_rowsA]
    exact takeRows_first _ _ e k (hok 0 e)
  · show (V m c main_v9 : Vec Ideal S1007616x128 .f32) (ix2 (⟨e.val, by omega⟩ : Fin 1007616) k) = _
    rw [V_rowsB]
    exact takeRows_second _ _ e k (hok 1 e)
  · exact W1a_apply m c k j
  · exact W1b_apply m c k j
  · exact B1_apply m c j
  · exact W2_apply m c (ix2 k j)
  · exact B2_apply m c j
  · exact W3_apply m c (ix2 k j)
  · exact B3_apply m c j
  · exact W4_apply m c (ix2 k (0 : Fin 1))
  · exact B4_apply m c

/-- What the lines after the region leave in the result buffer is G of the arguments. -/
theorem result_eq (c : Dev nD)
    (hok : ∀ (a : Fin 2) (e : Fin 1000000), WordOk (((m ((c : Thread nD τ).loc main_arg1)) : IVec S2x1000000 32) (ix2 a e))) :
    Pipeline.afterTail₀ cfgs (dats m) 0 (V0 m) [hostOps1] c main_v23 = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v23) = _
  after_results
  funext i
  obtain ⟨e, rfl⟩ : ∃ e : Fin 1000000, i = ix1 e := ⟨i 0, eq_ix1 i⟩
  show extractStridedSlice S1000000 ![0]
      (shapeCast _ (Pipeline.withArrays spec0 c (V0 m c) (fun w => (dats m 0 c).arrAt w cfg0.N) (Proc.devRef .tc (Pipeline.arrRef spec0 11)))
        shapeCasts_S123x1x8192_S1007616) slices_S1007616_S1000000_0 (ix1 e) = _
  rw [Pipeline.withArrays_arr spec0 launch0.win.arr_inj c _ _ 11, final_blocks m c]
  exact (tail_apply (Gblk m c) e).trans (score_apply m c hok e)

/-- The kernel program's run: it ends, the result buffer holds G of the arguments, the arguments are unchanged. -/
theorem kernel_run
    (hok : ∀ (c : Dev nD) (a : Fin 2) (e : Fin 1000000), WordOk (((m ((c : Thread nD τ).loc main_arg1)) : IVec S2x1000000 32) (ix2 a e))) :
    θ_run defs (onTc (τ := τ) (main (F := Ideal))) ⟨m, fun _ => 0, ρ⟩ (fun r => ∀ c : Dev nD,
      r.2.mem ((c.tc : Thread nD τ).loc main_v23) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_v23 (Pipeline.mem_restRefs_of main_v23 (by decide) (by decide))).trans (result_eq m c (hok c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.EdgeMlp

end
-- ==== Proof.RefValue.lean ====
/-
  The reference's result, stage by stage, is the score function G of the argument arrays.

  Every stage is read at one index from the stages before it: the index words through slice, reshape, compare, add,
  select and broadcast; the two row takes; the concatenation; four contractions with their biases, three relus; the
  reshape of the logits; and the logistic function spelt as 1 / (1 + exp (−x)). Folding the reads from the last stage
  down gives the perceptron of the two gathered rows, which is G at that edge.
-/
import proofs.«413607_j66975720014384_3_alg».proof.Proof.Gen.ReferenceIdeal.Read
import proofs.«413607_j66975720014384_3_alg».proof.Proof.Spec
import proofs.«413607_j66975720014384_3_alg».proof.Proof.LibRows
import Idealize.ShloMosaic.PureOps.Ideal.Laws
import Idealize.ShloMosaic.Lib.ValueIdx
import Idealize.ShloMosaic.Lib.Pipeline.Value

noncomputable section

open scoped BigOperators

namespace Cert.EdgeMlp

open Cert.ReferenceIdeal Cert.ReferenceIdeal.Gen Idealize.ShloMosaic Idealize.ShloMosaic.ValueIdx

/-! ## The index words

An edge's endpoint word is read out of the [2, 1000000] array through a slice of one row, a reshape to a vector
and a broadcast to a column; each of those reads its operand at one index, and the composed index is (r, e).
Between them the word is normalised: a negative word has the table's height added. -/

/-- The column's entry (e, 0) is the vector's entry e. -/
theorem idx7 (e : Fin 1000000) : Read.idx_main_v7 (ix2 e (0 : Fin 1)) = ix1 e := by
  funext a; match a with | ⟨0, _⟩ => rfl

/-- The vector's entry e is the one-row array's entry (0, e): e mod 1000000 is e. -/
theorem idx1 (e : Fin 1000000) : Read.idx_main_v1 (ix1 e) = ix2 (0 : Fin 1) e := by
  funext a; refine Fin.ext ?_
  match a with
  | ⟨0, _⟩ => rfl
  | ⟨1, _⟩ => exact Nat.mod_eq_of_lt e.isLt

/-- Row 0 of the slice at offset 0 is row 0 of the index array. -/
theorem idx0 (e : Fin 1000000) : Read.idx_main_v0 (ix2 (0 : Fin 1) e) = ix2 (0 : Fin 2) e := by
  funext a; refine Fin.ext ?_
  match a with
  | ⟨0, _⟩ => rfl
  | ⟨1, _⟩ => rfl

/-- Row 0 of the slice at offset 1 is row 1 of the index array. -/
theorem idx9 (e : Fin 1000000) : Read.idx_main_v9 (ix2 (0 : Fin 1) e) = ix2 (1 : Fin 2) e := by
  funext a; refine Fin.ext ?_
  match a with
  | ⟨0, _⟩ => rfl
  | ⟨1, _⟩ => rfl

/-- The first gather's start index for edge e is the normalised word edge_index[0, e]. -/
theorem word0 (x1 : (⟨S2x1000000, .i32⟩ : BufTy).Contents (Elt Ideal)) (e : Fin 1000000) :
    Read.val_main_v7 (F := Ideal) x1 (ix2 e (0 : Fin 1)) = wrapWord (x1 (ix2 (0 : Fin 2) e)) := by
  rw [Read.val_main_v7_apply, idx7, Read.val_main_v6_apply, Read.val_main_v3_apply, Read.val_main_v5_apply,
    Read.val_main_v2_apply, Read.val_main_v4_apply, Read.val_main_c_apply, Read.val_main_c_0_apply,
    Read.val_main_v1_apply, idx1, Read.val_main_v0_apply, idx0]
  rfl

/-- The second column's entry (e, 0) is its vector's entry e. -/
theorem idx16 (e : Fin 1000000) : Read.idx_main_v16 (ix2 e (0 : Fin 1)) = ix1 e := by
  funext a; match a with | ⟨0, _⟩ => rfl

/-- The second vector's entry e is its one-row array's entry (0, e). -/
theorem idx10 (e : Fin 1000000) : Read.idx_main_v10 (ix1 e) = ix2 (0 : Fin 1) e := by
  funext a; refine Fin.ext ?_
  match a with
  | ⟨0, _⟩ => rfl
  | ⟨1, _⟩ => exact Nat.mod_eq_of_lt e.isLt

/-- The second gather's start index for edge e is the normalised word edge_index[1, e]. -/
theorem word1 (x1 : (⟨S2x1000000, .i32⟩ : BufTy).Contents (Elt Ideal)) (e : Fin 1000000) :
    Read.val_main_v16 (F := Ideal) x1 (ix2 e (0 : Fin 1)) = wrapWord (x1 (ix2 (1 : Fin 2) e)) := by
  rw [Read.val_main_v16_apply, idx16, Read.val_main_v15_apply, Read.val_main_v12_apply, Read.val_main_v14_apply,
    Read.val_main_v11_apply, Read.val_main_v13_apply, Read.val_main_c_1_apply, Read.val_main_c_2_apply,
    Read.val_main_v10_apply, idx10, Read.val_main_v9_apply, idx9]
  rfl

/-! ## The two gathered rows and the joined row

A row take reads, at (e, c), the table's row named by the start index (read signed, clamped into the table) at
column c: that row is `node` of the edge's word. The concatenation along the columns reads the first array at a
column below 128 and the second, 128 less, from column 128 on. -/

/-- The source row of edge e: the table's row `node edge_index[0, e]`. -/
theorem row0 (x0 : (⟨S100000x128, .f32⟩ : BufTy).Contents (Elt Ideal)) (x1 : (⟨S2x1000000, .i32⟩ : BufTy).Contents (Elt Ideal))
    (e : Fin 1000000) (c : Fin 128) :
    Read.val_main_v8 (F := Ideal) x0 x1 (ix2 e c) = x0 (ix2 (node (x1 (ix2 (0 : Fin 2) e))) c) :=
  (Cert.Lib.Rows.gather_rows_apply (N := 100000) (C := 128) (K := 1000000) (by decide)
    gather_S100000x128_S1000000x1_S1000000x128_1_0_n_n_0_1_1128_wf x0 (Read.val_main_v7 (F := Ideal) x1) e c).trans
    (congrArg (fun r : Fin 100000 => x0 (ix2 r c))
      (Fin.ext (congrArg (fun w : BitVec 32 => min w.toInt.toNat (100000 - 1)) (word0 x1 e))))

/-- The destination row of edge e: the table's row `node edge_index[1, e]`. -/
theorem row1 (x0 : (⟨S100000x128, .f32⟩ : BufTy).Contents (Elt Ideal)) (x1 : (⟨S2x1000000, .i32⟩ : BufTy).Contents (Elt Ideal))
    (e : Fin 1000000) (c : Fin 128) :
    Read.val_main_v17 (F := Ideal) x0 x1 (ix2 e c) = x0 (ix2 (node (x1 (ix2 (1 : Fin 2) e))) c) :=
  (Cert.Lib.Rows.gather_rows_apply (N := 100000) (C := 128) (K := 1000000) (by decide)
    gather_S100000x128_S1000000x1_S1000000x128_1_0_n_n_0_1_1128_wf x0 (Read.val_main_v16 (F := Ideal) x1) e c).trans
    (congrArg (fun r : Fin 100000 => x0 (ix2 r c))
      (Fin.ext (congrArg (fun w : BitVec 32 => min w.toInt.toNat (100000 - 1)) (word1 x1 e))))

/-- A column of the joined row below 128 is that column of the source row. -/
theorem joined_left (x0 : (⟨S100000x128, .f32⟩ : BufTy).Contents (Elt Ideal)) (x1 : (⟨S2x1000000, .i32⟩ : BufTy).Contents (Elt Ideal))
    (e : Fin 1000000) (k' : Fin 256) (k : Fin 128) (hk : k.val = k'.val) :
    Read.val_main_v18 (F := Ideal) x0 x1 (ix2 e k') = Read.val_main_v8 (F := Ideal) x0 x1 (ix2 e k) := by
  unfold Read.val_main_v18
  generalize Read.val_main_v8 (F := Ideal) x0 x1 = y8
  generalize Read.val_main_v17 (F := Ideal) x0 x1 = y17
  exact concatenate_pair_apply_left (t := S1000000x256) (s₁ := S1000000x128) (s₂ := S1000000x128) 1 y8 y17
    concatenates_S1000000x128_S1000000x128_S1000000x256_d1 (ix2 e k') rfl (ix2 e k) (fun b => by
    match b with
    | ⟨0, _⟩ => rfl
    | ⟨1, _⟩ => exact hk)

/-- A column k + 128 of the joined row is column k of the destination row. -/
theorem joined_right (x0 : (⟨S100000x128, .f32⟩ : BufTy).Contents (Elt Ideal)) (x1 : (⟨S2x1000000, .i32⟩ : BufTy).Contents (Elt Ideal))
    (e : Fin 1000000) (k' : Fin 256) (k : Fin 128) (hk : k.val + 128 = k'.val) :
    Read.val_main_v18 (F := Ideal) x0 x1 (ix2 e k') = Read.val_main_v17 (F := Ideal) x0 x1 (ix2 e k) := by
  unfold Read.val_main_v18
  generalize Read.val_main_v8 (F := Ideal) x0 x1 = y8
  generalize Read.val_main_v17 (F := Ideal) x0 x1 = y17
  exact concatenate_pair_apply_right (t := S1000000x256) (s₁ := S1000000x128) (s₂ := S1000000x128) 1 y8 y17
    concatenates_S1000000x128_S1000000x128_S1000000x256_d1 (ix2 e k') rfl rfl (ix2 e k)
    (fun b hb => by
      match b with
      | ⟨0, _⟩ => rfl
      | ⟨1, _⟩ => exact absurd rfl hb)
    hk

/-! ## The layers

Each linear layer is a contraction over the hidden index k of the previous stage at (e, k) against the weight at
(k, j), plus the bias at j (a vector broadcast down the rows); a relu is the maximum with the broadcast constant 0.
The first layer's contraction runs over the 256 columns of the joined row and splits into the two rows' halves. -/

/-- The first contraction reads the joined row at (e, k). -/
theorem lidx19 (e : Fin 1000000) (j k : Fin 256) : Read.lidx_main_v19 (ix2 e j) k = ix2 e k := by
  funext a; match a with
  | ⟨0, _⟩ => rfl
  | ⟨1, _⟩ => rfl

/-- The first contraction reads the weight at (k, j). -/
theorem ridx19 (e : Fin 1000000) (j k : Fin 256) : Read.ridx_main_v19 (ix2 e j) k = ix2 k j := by
  funext a; match a with
  | ⟨0, _⟩ => rfl
  | ⟨1, _⟩ => rfl

/-- The first bias, broadcast to a row and then down the rows, is read at j. -/
theorem idx21 (e : Fin 1000000) (j : Fin 256) : Read.idx_main_v20 (Read.idx_main_v21 (ix2 e j)) = ix1 j := by
  funext a; match a with
  | ⟨0, _⟩ => rfl

/-- After the first relu, entry (e, j) is the first layer of the edge's two rows at j. -/
theorem stage23 (x0 : (⟨S100000x128, .f32⟩ : BufTy).Contents (Elt Ideal)) (x1 : (⟨S2x1000000, .i32⟩ : BufTy).Contents (Elt Ideal))
    (x2 : (⟨S256x256, .f32⟩ : BufTy).Contents (Elt Ideal)) (x3 : (⟨S256, .f32⟩ : BufTy).Contents (Elt Ideal))
    (e : Fin 1000000) (j : Fin 256) :
    Read.val_main_v23 (F := Ideal) x0 x1 x2 x3 (ix2 e j)
      = layer1 (fun k => x0 (ix2 (node (x1 (ix2 (0 : Fin 2) e))) k)) (fun k => x0 (ix2 (node (x1 (ix2 (1 : Fin 2) e))) k))
          (fun k j => x2 (ix2 (Fin.castAdd 128 k) j)) (fun k j => x2 (ix2 (Fin.natAdd 128 k) j)) (fun j => x3 (ix1 j)) j := by
  rw [Read.val_main_v23_apply, Read.val_main_v22_apply, Read.val_main_v19_apply, Read.val_main_v21_apply,
    Read.val_main_v20_apply, idx21, Read.val_main_call0_v0_apply, Read.val_main_call0_cst_apply]
  simp only [lidx19, ridx19]
  rw [sum_joined (fun k => Read.val_main_v18 (F := Ideal) x0 x1 (ix2 e k)) (fun k => x2 (ix2 k j))
      (fun k => x0 (ix2 (node (x1 (ix2 (0 : Fin 2) e))) k)) (fun k => x0 (ix2 (node (x1 (ix2 (1 : Fin 2) e))) k))
      (fun k => (joined_left x0 x1 e _ k rfl).trans (row0 x0 x1 e k))
      (fun k => (joined_right x0 x1 e _ k (Nat.add_comm _ _)).trans (row1 x0 x1 e k)),
    Ideal.ofBits_def, Ideal.ofBits_zero_f32]
  rfl

/-- The second contraction reads the first hidden layer at (e, k). -/
theorem lidx24 (e : Fin 1000000) (j : Fin 64) (k : Fin 256) : Read.lidx_main_v24 (ix2 e j) k = ix2 e k := by
  funext a; match a with
  | ⟨0, _⟩ => rfl
  | ⟨1, _⟩ => rfl

/-- The second contraction reads the weight at (k, j). -/
theorem ridx24 (e : Fin 1000000) (j : Fin 64) (k : Fin 256) : Read.ridx_main_v24 (ix2 e j) k = ix2 k j := by
  funext a; match a with
  | ⟨0, _⟩ => rfl
  | ⟨1, _⟩ => rfl

/-- The second bias is read at j. -/
theorem idx26 (e : Fin 1000000) (j : Fin 64) : Read.idx_main_v25 (Read.idx_main_v26 (ix2 e j)) = ix1 j := by
  funext a; match a with
  | ⟨0, _⟩ => rfl

/-- After the second relu, entry (e, j) is the second layer of the first hidden layer's row e. -/
theorem stage28 (x0 : (⟨S100000x128, .f32⟩ : BufTy).Contents (Elt Ideal)) (x1 : (⟨S2x1000000, .i32⟩ : BufTy).Contents (Elt Ideal))
    (x2 : (⟨S256x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))
    (e : Fin 1000000) (j : Fin 64) :
    Read.val_main_v28 (F := Ideal) x0 x1 x2 x3 x4 x5 (ix2 e j)
      = layer2 (fun k => Read.val_main_v23 (F := Ideal) x0 x1 x2 x3 (ix2 e k)) (fun k j => x4 (ix2 k j)) (fun j => x5 (ix1 j)) j := by
  rw [Read.val_main_v28_apply, Read.val_main_v27_apply, Read.val_main_v24_apply, Read.val_main_v26_apply,
    Read.val_main_v25_apply, idx26, Read.val_main_call1_v0_apply, Read.val_main_call1_cst_apply]
  simp only [lidx24, ridx24]
  rw [Ideal.ofBits_def, Ideal.ofBits_zero_f32]
  rfl

/-- The third contraction reads the second hidden layer at (e, k). -/
theorem lidx29 (e : Fin 1000000) (j : Fin 16) (k : Fin 64) : Read.lidx_main_v29 (ix2 e j) k = ix2 e k := by
  funext a; match a with
  | ⟨0, _⟩ => rfl
  | ⟨1, _⟩ => rfl

/-- The third contraction reads the weight at (k, j). -/
theorem ridx29 (e : Fin 1000000) (j : Fin 16) (k : Fin 64) : Read.ridx_main_v29 (ix2 e j) k = ix2 k j := by
  funext a; match a with
  | ⟨0, _⟩ => rfl
  | ⟨1, _⟩ => rfl

/-- The third bias is read at j. -/
theorem idx31 (e : Fin 1000000) (j : Fin 16) : Read.idx_main_v30 (Read.idx_main_v31 (ix2 e j)) = ix1 j := by
  funext a; match a with
  | ⟨0, _⟩ => rfl

/-- Before the last relu, entry (e, j) is the third layer (no activation) of the second hidden layer's row e. -/
theorem stage32 (x0 : (⟨S100000x128, .f32⟩ : BufTy).Contents (Elt Ideal)) (x1 : (⟨S2x1000000, .i32⟩ : BufTy).Contents (Elt Ideal))
    (x2 : (⟨S256x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))
    (x6 : (⟨S64x16, .f32⟩ : BufTy).Contents (Elt Ideal)) (x7 : (⟨S16, .f32⟩ : BufTy).Contents (Elt Ideal))
    (e : Fin 1000000) (j : Fin 16) :
    Read.val_main_v32 (F := Ideal) x0 x1 x2 x3 x4 x5 x6 x7 (ix2 e j)
      = layer3 (fun k => Read.val_main_v28 (F := Ideal) x0 x1 x2 x3 x4 x5 (ix2 e k)) (fun k j => x6 (ix2 k j)) (fun j => x7 (ix1 j)) j := by
  rw [Read.val_main_v32_apply, Read.val_main_v29_apply, Read.val_main_v31_apply, Read.val_main_v30_apply, idx31]
  simp only [lidx29, ridx29]
  rfl

/-- The last contraction reads the rectified third layer at (e, k). -/
theorem lidx34 (e : Fin 1000000) (j : Fin 1) (k : Fin 16) : Read.lidx_main_v34 (ix2 e j) k = ix2 e k := by
  funext a; match a with
  | ⟨0, _⟩ => rfl
  | ⟨1, _⟩ => rfl

/-- The last contraction reads the weight at (k, 0). -/
theorem ridx34 (e : Fin 1000000) (j : Fin 1) (k : Fin 16) : Read.ridx_main_v34 (ix2 e j) k = ix2 k j := by
  funext a; match a with
  | ⟨0, _⟩ => rfl
  | ⟨1, _⟩ => rfl

/-- The last bias has one entry, read at 0. -/
theorem idx36 (e : Fin 1000000) (j : Fin 1) : Read.idx_main_v35 (Read.idx_main_v36 (ix2 e j)) = ix1 (0 : Fin 1) := by
  funext a; match a with
  | ⟨0, _⟩ => rfl

/-- The logit of edge e: the rectified third layer against the last weight column, plus the last bias. -/
theorem stage37 (x0 : (⟨S100000x128, .f32⟩ : BufTy).Contents (Elt Ideal)) (x1 : (⟨S2x1000000, .i32⟩ : BufTy).Contents (Elt Ideal))
    (x2 : (⟨S256x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))
    (x6 : (⟨S64x16, .f32⟩ : BufTy).Contents (Elt Ideal)) (x7 : (⟨S16, .f32⟩ : BufTy).Contents (Elt Ideal))
    (x8 : (⟨S16x1, .f32⟩ : BufTy).Contents (Elt Ideal)) (x9 : (⟨S1, .f32⟩ : BufTy).Contents (Elt Ideal))
    (e : Fin 1000000) :
    Read.val_main_v37 (F := Ideal) x0 x1 x2 x3 x4 x5 x6 x7 x8 x9 (ix2 e (0 : Fin 1))
      = ∑ k : Fin 16, max (Read.val_main_v32 (F := Ideal) x0 x1 x2 x3 x4 x5 x6 x7 (ix2 e k)) 0 * x8 (ix2 k (0 : Fin 1))
          + x9 (ix1 (0 : Fin 1)) := by
  rw [Read.val_main_v37_apply, Read.val_main_v34_apply, Read.val_main_v36_apply, Read.val_main_v35_apply, idx36]
  simp only [lidx34, ridx34, Read.val_main_v33_apply, Read.val_main_call2_v0_apply, Read.val_main_call2_cst_apply,
    Ideal.ofBits_def, Ideal.ofBits_zero_f32]
  rfl

/-! ## The score

The [1000000, 1] logits are reshaped to a vector (entry e is entry (e, 0): e / 1 = e), and 1 / (1 + exp (−x)) is
the logistic function by definition. -/

/-- The vector's entry e is the column's entry (e, 0). -/
theorem idx38 (e : Fin 1000000) : Read.idx_main_v38 (ix1 e) = ix2 e (0 : Fin 1) := by
  funext a; refine Fin.ext ?_
  match a with
  | ⟨0, _⟩ => exact Nat.div_one _
  | ⟨1, _⟩ => rfl

/-- The f32 word of 1.0 is the extended real 1. -/
theorem ofBits_one_f32 : Ideal.ofBits .f32 0x3F800000#32 = 1 := by
  simp [Ideal.ofBits, Ideal.ieee, -EReal.coe_mul]; norm_num

/-- The last stage at e is the logistic function of the logit of edge e. -/
theorem stage44 (x0 : (⟨S100000x128, .f32⟩ : BufTy).Contents (Elt Ideal)) (x1 : (⟨S2x1000000, .i32⟩ : BufTy).Contents (Elt Ideal))
    (x2 : (⟨S256x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))
    (x6 : (⟨S64x16, .f32⟩ : BufTy).Contents (Elt Ideal)) (x7 : (⟨S16, .f32⟩ : BufTy).Contents (Elt Ideal))
    (x8 : (⟨S16x1, .f32⟩ : BufTy).Contents (Elt Ideal)) (x9 : (⟨S1, .f32⟩ : BufTy).Contents (Elt Ideal))
    (e : Fin 1000000) :
    Read.val_main_v44 (F := Ideal) x0 x1 x2 x3 x4 x5 x6 x7 x8 x9 (ix1 e)
      = Ideal.logistic (Read.val_main_v37 (F := Ideal) x0 x1 x2 x3 x4 x5 x6 x7 x8 x9 (ix2 e (0 : Fin 1))) := by
  rw [Read.val_main_v44_apply, Read.val_main_v43_apply, Read.val_main_cst_3_apply, Read.val_main_v42_apply,
    Read.val_main_v41_apply, Read.val_main_cst_apply, Read.val_main_v40_apply, Read.val_main_v39_apply,
    Read.val_main_v38_apply, idx38, Ideal.ofBits_def, ofBits_one_f32]
  rfl

/-- The reference's last stage is G. -/
theorem ref_eq (x0 : (⟨S100000x128, .f32⟩ : BufTy).Contents (Elt Ideal)) (x1 : (⟨S2x1000000, .i32⟩ : BufTy).Contents (Elt Ideal))
    (x2 : (⟨S256x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))
    (x6 : (⟨S64x16, .f32⟩ : BufTy).Contents (Elt Ideal)) (x7 : (⟨S16, .f32⟩ : BufTy).Contents (Elt Ideal))
    (x8 : (⟨S16x1, .f32⟩ : BufTy).Contents (Elt Ideal)) (x9 : (⟨S1, .f32⟩ : BufTy).Contents (Elt Ideal)) :
    Cert.ReferenceIdeal.Read.val_main_v44 (F := Ideal) x0 x1 x2 x3 x4 x5 x6 x7 x8 x9 = G x0 x1 x2 x3 x4 x5 x6 x7 x8 x9 := by
  funext i
  obtain ⟨e, rfl⟩ : ∃ e : Fin 1000000, i = ix1 e := ⟨i 0, eq_ix1 i⟩
  rw [stage44, stage37]
  simp only [stage32, stage28, stage23]
  rfl

end Cert.EdgeMlp

end
-- ==== Proof.lean ====
/-
  An edge scorer for a graph: for each of 1,000,000 edges the two endpoint rows of a [100000, 128] node table are
  gathered and pushed through a four-layer perceptron (256 → 256 → 64 → 16 → 1, relu after the first two layers and
  before the last, a logistic at the end).

  The kernel program gathers on the host with a filling take over the two index rows padded to a multiple of 8192
  and joined, runs the perceptron on 123 blocks of 8192 edges with the first weight matrix split in its two halves
  (a · W1[0:128] + b · W1[128:256] in place of [a | b] · W1), and slices the padding off; the reference gathers with
  clamping indexing, joins the two rows and multiplies once. At the ideal values a change of float format is the
  identity, the kernel's logistic is 1 / (1 + e^(-x)) as the reference spells it, and a sum over 256 = 128 + 128
  columns splits into its halves, so both programs compute the score function G (Proof/Spec.lean) of the arguments:
  the kernel by its frame run, the body at a lane, the blocks tiling the output and the host lines around the region
  (Proof/KernelBody.lean, KernelBlocks.lean, HostStages.lean, KernelHostRows.lean, KernelHostWeights.lean,
  KernelValue.lean), the reference stage by stage over its run (Proof/RefValue.lean).

  The two gathers differ only at an index word that is not a valid numpy index of the table (outside
  [-100000, 100000)): there the take fills the row and the reference clamps. The precondition excludes exactly those
  words (Proof/PreDecode.lean reads it back); finiteness of the float inputs is not used.
-/
import proofs.«413607_j66975720014384_3_alg».proof.Defs
import proofs.«413607_j66975720014384_3_alg».proof.Proof.Gen.Kernel
import proofs.«413607_j66975720014384_3_alg».proof.Proof.Gen.Kernel.Skeleton
import proofs.«413607_j66975720014384_3_alg».proof.Proof.Gen.Kernel.Launch
import proofs.«413607_j66975720014384_3_alg».proof.Proof.Gen.Kernel.Points
import proofs.«413607_j66975720014384_3_alg».proof.Proof.Gen.Kernel.Frame
import proofs.«413607_j66975720014384_3_alg».proof.Proof.Gen.KernelIdeal
import proofs.«413607_j66975720014384_3_alg».proof.Proof.Gen.KernelIdeal.Skeleton
import proofs.«413607_j66975720014384_3_alg».proof.Proof.Gen.KernelIdeal.Launch
import proofs.«413607_j66975720014384_3_alg».proof.Proof.Gen.KernelIdeal.Points
import proofs.«413607_j66975720014384_3_alg».proof.Proof.Gen.KernelIdeal.Frame
import proofs.«413607_j66975720014384_3_alg».proof.Proof.Gen.ReferenceIdeal
import proofs.«413607_j66975720014384_3_alg».proof.Proof.Gen.Pre_finite_inputs
import proofs.«413607_j66975720014384_3_alg».proof.Proof.Gen.ReferenceIdeal.Run
import proofs.«413607_j66975720014384_3_alg».proof.Proof.Gen.ReferenceIdeal.Read
import proofs.«413607_j66975720014384_3_alg».proof.Proof.KernelValue
import proofs.«413607_j66975720014384_3_alg».proof.Proof.RefValue
import proofs.«413607_j66975720014384_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Both programs end with the score function G of the arguments in their result buffers. -/
theorem algebraic : Cert.algebraic_KernelIdeal_ReferenceIdeal := by
  intro m ρ m' ρ' hpre hagree
  have hok : ∀ (c : Dev Cert.KernelIdeal.nD) (a : Fin 2) (e : Fin 1000000),
      Cert.EdgeMlp.WordOk (((m ((c.tc : Thread Cert.KernelIdeal.nD Cert.KernelIdeal.τ).loc Cert.KernelIdeal.main_arg1)) : IVec Cert.KernelIdeal.S2x1000000 32) (ValueIdx.ix2 a e)) :=
    fun c a e => Cert.EdgeMlp.words_ok _ _ _ _ _ _ _ _ _ _ (hpre c) a e
  refine ⟨fun c => Cert.EdgeMlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.EdgeMlp.kernel_run m ρ hok, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v44_eq, Cert.EdgeMlp.ref_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
